-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x256 : Shape := ⟨2, ![128, 256]⟩
abbrev S128 : Shape := ⟨1, ![128]⟩
abbrev S128x128 : Shape := ⟨2, ![128, 128]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg4 : FVec F S128 .f32) (main_arg6 : IVec S500000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 4294867296#32
  let main_v24 : IVec S500000 32 := broadcastInDim S500000 ![] bcast_S_S500000 main_c_8
  let main_v25 : IVec S500000 1 := cmpi .sge main_arg6 main_v24
  let main_c_9 : IVec S_ 32 := constantI S_ 32 100000#32
  let main_v26 : IVec S500000 32 := broadcastInDim S500000 ![] bcast_S_S500000 main_c_9
  let main_v27 : IVec S500000 1 := cmpi .slt main_arg6 main_v26
  let main_v28 : IVec S500000 1 := andi main_v25 main_v27
  let main_c_10 : IVec S_ 1 := constantI S_ 1 1#1
  let main_v29 : IVec S_ 1 := (fun x v => Host.reduce IntOp.andi x v reducesTo_S500000_S_d0 h_S_) main_v28 main_c_10
  let main_v30 : IVec S_ 1 := andi main_v23 main_v29
  main_v30

def fn {F : FTy → Type} [FloatOps F] (main_arg0 : FVec F S100000x128 .f32) (main_arg1 : FVec F S128x256 .f32) (main_arg2 : FVec F S128 .f32) (main_arg3 : FVec F S128x128 .f32) (main_arg4 : FVec F S128 .f32) (main_arg5 : IVec S500000 32) (main_arg6 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg6 main_v13 main_v16
-- ==== Kernel.lean ====
abbrev S100000x128 : Shape := ⟨2, ![100000, 128]⟩
abbrev S128x256 : Shape := ⟨2, ![128, 256]⟩
abbrev S128 : Shape := ⟨1, ![128]⟩
abbrev S128x128 : Shape := ⟨2, ![128, 128]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S4000x128 : Shape := ⟨2, ![4000, 128]⟩
abbrev S1x128 : Shape := ⟨2, ![1, 128]⟩
abbrev S5000x128 : Shape := ⟨2, ![5000, 128]⟩

abbrev nBuf : Space → Nat
  | .hbm => 64
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S500000, .i32⟩
  | .hbm, ⟨6, _⟩ => ⟨S500000, .i32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S1, .i32⟩
  | .hbm, ⟨21, _⟩ => ⟨S_, .i32⟩
  | .hbm, ⟨22, _⟩ => ⟨S500000x1, .i32⟩
  | .hbm, ⟨23, _⟩ => ⟨S500000x1, .i1⟩
  | .hbm, ⟨24, _⟩ => ⟨S1x1, .i32⟩
  | .hbm, ⟨25, _⟩ => ⟨S500000x1, .i32⟩
  | .hbm, ⟨26, _⟩ => ⟨S500000x1, .i1⟩
  | .hbm, ⟨27, _⟩ => ⟨S500000x1, .i1⟩
  | .hbm, ⟨28, _⟩ => ⟨S_, .i1⟩
  | .hbm, ⟨29, _⟩ => ⟨S500000, .i1⟩
  | .hbm, ⟨30, _⟩ => ⟨S500000x128, .f32⟩
  | .hbm, ⟨31, _⟩ => ⟨S500000x128, .i1⟩
  | .hbm, ⟨32, _⟩ => ⟨S_, .f32⟩
  | .hbm, ⟨33, _⟩ => ⟨S500000x128, .f32⟩
  | .hbm, ⟨34, _⟩ => ⟨S500000x128, .f32⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S1, .i32⟩
  | .hbm, ⟨44, _⟩ => ⟨S_, .i32⟩
  | .hbm, ⟨45, _⟩ => ⟨S500000x1, .i32⟩
  | .hbm, ⟨46, _⟩ => ⟨S500000x1, .i1⟩
  | .hbm, ⟨47, _⟩ => ⟨S1x1, .i32⟩
  | .hbm, ⟨48, _⟩ => ⟨S500000x1, .i32⟩
  | .hbm, ⟨49, _⟩ => ⟨S500000x1, .i1⟩
  | .hbm, ⟨50, _⟩ => ⟨S500000x1, .i1⟩
  | .hbm, ⟨51, _⟩ => ⟨S_, .i1⟩
  | .hbm, ⟨52, _⟩ => ⟨S500000, .i1⟩
  | .hbm, ⟨53, _⟩ => ⟨S500000x128, .f32⟩
  | .hbm, ⟨54, _⟩ => ⟨S500000x128, .i1⟩
  | .hbm, ⟨55, _⟩ => ⟨S_, .f32⟩
  | .hbm, ⟨56, _⟩ => ⟨S500000x128, .f32⟩
  | .hbm, ⟨57, _⟩ => ⟨S500000x128, .f32⟩
  | .hbm, ⟨58, _⟩ => ⟨S500000x128, .f32⟩
  | .hbm, ⟨59, _⟩ => ⟨S_, .f32⟩
  | .hbm, ⟨60, _⟩ => ⟨S100000x128, .f32⟩
  | .hbm, ⟨61, _⟩ => ⟨S500000x1, .i32⟩
  | .hbm, ⟨62, _⟩ => ⟨S100000x128, .f32⟩
  | .hbm, ⟨63, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S4000x128, .f32⟩
  | .local _ .vmem, ⟨10, _⟩ => ⟨S4000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v6 : Ref sig .tc := ⟨.hbm, 57, rfl⟩
abbrev main_v7 : Ref sig .tc := ⟨.hbm, 58, rfl⟩
abbrev main_cst : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  gather_S100000x128_S500000x1_S500000x128_1_0_n_n_0_1_1128_wf : GatherDims.WF S100000x128 S500000x1 S500000x128 [1] [0] [] [0] [] 1 ![1, 128]
  dot_S4000x128_S128x128_S4000x128_1_0_0_1_n_n_wf : DotDims.WF S4000x128 S128x128 S4000x128 [1] [0] [0] [1] [] []
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S500000x128.size a
  hwx0_7 : ∀ i : grid0.Coords, EltTy.bits .f32 = 32 ∨ (Rect.block (s := S500000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_v5) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x256 : Shape := ⟨2, ![128, 256]⟩
abbrev S128 : Shape := ⟨1, ![128]⟩
abbrev S128x128 : Shape := ⟨2, ![128, 128]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S256x128 : Shape := ⟨2, ![256, 128]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S500000, .i32⟩
  | .hbm, ⟨6, _⟩ => ⟨S500000, .i32⟩
  | .hbm, ⟨7, _⟩ => ⟨S_, .i32⟩
  | .hbm, ⟨8, _⟩ => ⟨S500000, .i32⟩
  | .hbm, ⟨9, _⟩ => ⟨S500000, .i1⟩
  | .hbm, ⟨10, _⟩ => ⟨S_, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S500000x1, .i32⟩
  | .hbm, ⟨15, _⟩ => ⟨S500000x128, .f32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x128, .f32⟩
  | .hbm, ⟨25, _⟩ => ⟨S500000x128, .f32⟩
  | .hbm, ⟨26, _⟩ => ⟨S500000x256, .f32⟩
  | .hbm, ⟨27, _⟩ => ⟨S256x128, .f32⟩
  | .hbm, ⟨28, _⟩ => ⟨S500000x128, .f32⟩
  | .hbm, ⟨29, _⟩ => ⟨S1x128, .f32⟩
  | .hbm, ⟨30, _⟩ => ⟨S500000x128, .f32⟩
  | .hbm, ⟨31, _⟩ => ⟨S500000x128, .f32⟩
  | .hbm, ⟨32, _⟩ => ⟨S_, .f32⟩
  | .hbm, ⟨33, _⟩ => ⟨S500000x128, .f32⟩
  | .hbm, ⟨34, _⟩ => ⟨S500000x128, .f32⟩
  | .hbm, ⟨35, _⟩ => ⟨S128x128, .f32⟩
  | .hbm, ⟨36, _⟩ => ⟨S500000x128, .f32⟩
  | .hbm, ⟨37, _⟩ => ⟨S1x128, .f32⟩
  | .hbm, ⟨38, _⟩ => ⟨S500000x128, .f32⟩
  | .hbm, ⟨39, _⟩ => ⟨S500000x128, .f32⟩
  | .hbm, ⟨40, _⟩ => ⟨S_, .f32⟩
  | .hbm, ⟨41, _⟩ => ⟨S500000x128, .f32⟩
  | .hbm, ⟨42, _⟩ => ⟨S500000x128, .f32⟩
  | .hbm, ⟨43, _⟩ => ⟨S_, .f32⟩
  | .hbm, ⟨44, _⟩ => ⟨S100000x128, .f32⟩
  | .hbm, ⟨45, _⟩ => ⟨S500000x1, .i32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call2_cst : Ref sig .tc := ⟨.hbm, 48, rfl⟩
abbrev main_call2_v0 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  transposes_S128x256_S256x128_1_0 : S128x256.Transposes [1, 0] S256x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S128x128_S128x128_1_0 : S128x128.Transposes [1, 0] S128x128
  bcast_S_S100000x128 : S_.BroadcastsInDim S100000x128 (![] : Fin 0 → Fin S100000x128.rank)
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x128_S500000x128_1_0_0_1_n_n_wf : DotDims.WF S500000x128 S128x128 S500000x128 [1] [0] [0] [1] [] []
  scatter_S100000x128_S500000x1_S500000x128_1_0_0_1_wf : ScatterDims.WF S100000x128 S500000x1 S500000x128 [1] [0] [0] 1

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.Spec.lean ====
/-
  The mathematics of the message-passing block over the extended reals, as functions of the argument arrays.

  An edge e carries two node rows, x1 = features[p1 e] and x2 = features[p2 e].  Its message is a two-layer map
  with a positive part after each layer: the first layer is x1·A + (x2 − x1)·B + b0, the second is h·C + b1, with
  A, B, C square matrices indexed [contraction, output].  For the block's weights A and B are the transposed left and
  right halves of the 128 × 256 matrix W0 and C is the transpose of W1, so the first layer is the product of the
  concatenated row [x1, x2 − x1] with W0 transposed: a sum of 256 terms split into its two halves of 128.
  Node n then receives the sum of the messages of the edges whose source index is n, and the result is the positive
  part of features + that sum.

  A source or target index w names the row "w if w ≥ 0, else w + 100000", clamped into [0, 99999].  Only the edges whose
  source index is, read signed, a row number in [0, 100000) contribute to any node (an index outside lands nowhere), so
  two families of messages that agree on those edges give the same result.
-/
import Idealize.ShloMosaic.Lib.ValueIdx
import Idealize.ShloMosaic.Lib.Affine
import Idealize.ShloMosaic.PureOps.Ideal
import Mathlib.Algebra.BigOperators.Fin

noncomputable section

namespace Cert.EdgeConv

open Idealize.ShloMosaic Idealize.ShloMosaic.ValueIdx
open scoped BigOperators

abbrev Nodes : Shape := ⟨2, ![100000, 128]⟩
abbrev Edges : Shape := ⟨2, ![500000, 128]⟩
abbrev Wide : Shape := ⟨2, ![128, 256]⟩
abbrev Square : Shape := ⟨2, ![128, 128]⟩
abbrev Bias : Shape := ⟨1, ![128]⟩
abbrev Ids : Shape := ⟨1, ![500000]⟩

/-- The positive part. -/
def relu (x : EReal) : EReal := max x 0

/-- Column k of the left half of a row of 256. -/
def lo (k : Fin 128) : Fin 256 := ⟨k.val, by omega⟩
/-- Column k of the right half of a row of 256. -/
def hi (k : Fin 128) : Fin 256 := ⟨128 + k.val, by omega⟩

/-- A sum over 256 columns is the sum over the left half plus the sum over the right half. -/
theorem sum_halves {M : Type} [AddCommMonoid M] (f : Fin 256 → M) :
    ∑ k : Fin 256, f k = ∑ k : Fin 128, f (lo k) + ∑ k : Fin 128, f (hi k) :=
  Fin.sum_univ_add (a := 128) (b := 128) f

/-- The message of one edge from its two rows: positive part of (positive part of (x1·A + (x2 − x1)·B + b0))·C + b1. -/
def edgeRow (A B : Square.Idx → EReal) (b0 : Bias.Idx → EReal) (C : Square.Idx → EReal) (b1 : Bias.Idx → EReal)
    (x1 x2 : Fin 128 → EReal) (j : Fin 128) : EReal :=
  relu ((∑ k : Fin 128,
      relu ((∑ k' : Fin 128, x1 k' * A (ix2 k' k)) + (∑ k' : Fin 128, (x2 k' - x1 k') * B (ix2 k' k)) + b0 (ix1 k))
        * C (ix2 k j)) + b1 (ix1 j))

/-- The messages of all edges, from the arrays of their first and second rows. -/
def mlpRows (A B : Square.Idx → EReal) (b0 : Bias.Idx → EReal) (C : Square.Idx → EReal) (b1 : Bias.Idx → EReal)
    (g1 g2 : Edges.Idx → EReal) : Edges.Idx → EReal := fun i =>
  edgeRow A B b0 C b1 (fun k => g1 (ix2 (i 0) k)) (fun k => g2 (ix2 (i 0) k)) (i 1)

/-- The messages at an edge depend on the two rows of that edge only. -/
theorem mlpRows_congr_row (A B : Square.Idx → EReal) (b0 : Bias.Idx → EReal) (C : Square.Idx → EReal) (b1 : Bias.Idx → EReal)
    (g1 g2 g1' g2' : Edges.Idx → EReal) (e : Fin 500000) (j : Fin 128)
    (h1 : ∀ k : Fin 128, g1 (ix2 e k) = g1' (ix2 e k)) (h2 : ∀ k : Fin 128, g2 (ix2 e k) = g2' (ix2 e k)) :
    mlpRows A B b0 C b1 g1 g2 (ix2 e j) = mlpRows A B b0 C b1 g1' g2' (ix2 e j) := by
  show edgeRow A B b0 C b1 (fun k => g1 (ix2 e k)) (fun k => g2 (ix2 e k)) j
    = edgeRow A B b0 C b1 (fun k => g1' (ix2 e k)) (fun k => g2' (ix2 e k)) j
  rw [funext h1, funext h2]

/-- The transposed left half, the transposed right half of W0, and the transpose of W1. -/
def leftT (W0 : Wide.Idx → EReal) : Square.Idx → EReal := fun i => W0 (ix2 (i 1) (lo (i 0)))
def rightT (W0 : Wide.Idx → EReal) : Square.Idx → EReal := fun i => W0 (ix2 (i 1) (hi (i 0)))
def transposeSq (W1 : Square.Idx → EReal) : Square.Idx → EReal := fun i => W1 (ix2 (i 1) (i 0))

/-- The row an index names before clamping: w if w ≥ 0, else w + 100000 (32-bit words, read signed). -/
def wrapIx (w : BitVec 32) : BitVec 32 := Scalar.select (IntOp.cmpi .slt w 0#32) (IntOp.addi w 100000#32) w

/-- The row an index names: the wrapped index clamped into [0, 99999]. -/
def rowOf (w : BitVec 32) : Fin 100000 := ⟨min (wrapIx w).toInt.toNat 99999, by omega⟩

/-- The rows of the features that the indices name, one per edge. -/
def gatherRows (feat : Nodes.Idx → EReal) (p : Ids.Idx → BitVec 32) : Edges.Idx → EReal := fun i =>
  feat (ix2 (rowOf (p (ix1 (i 0)))) (i 1))

/-- The edges whose source index, read signed, is the row number n. -/
def hits (p : Ids.Idx → BitVec 32) (n : Nat) : Finset (Fin 500000) :=
  Finset.univ.filter fun e : Fin 500000 => (p (ix1 e)).toInt = (n : Int)

/-- Features plus, at each node, the messages of the edges whose source is that node; then the positive part. -/
def resultOf (feat : Nodes.Idx → EReal) (p1 : Ids.Idx → BitVec 32) (upd : Edges.Idx → EReal) : Nodes.Idx → EReal := fun i =>
  relu (feat i + (0 + ∑ e ∈ hits p1 (i 0).val, upd (ix2 e (i 1))))

/-- THE RESULT of the block as a function of its seven arguments. -/
def result (feat : Nodes.Idx → EReal) (W0 : Wide.Idx → EReal) (b0 : Bias.Idx → EReal) (W1 : Square.Idx → EReal)
    (b1 : Bias.Idx → EReal) (p1 p2 : Ids.Idx → BitVec 32) : Nodes.Idx → EReal :=
  resultOf feat p1 (mlpRows (leftT W0) (rightT W0) b0 (transposeSq W1) b1 (gatherRows feat p1) (gatherRows feat p2))

/-- Two families of messages that agree at every edge whose source index is a row number give the same result. -/
theorem resultOf_congr (feat : Nodes.Idx → EReal) (p1 : Ids.Idx → BitVec 32) (u u' : Edges.Idx → EReal)
    (h : ∀ (e : Fin 500000) (j : Fin 128), 0 ≤ (p1 (ix1 e)).toInt → (p1 (ix1 e)).toInt < 100000 →
      u (ix2 e j) = u' (ix2 e j)) :
    resultOf feat p1 u = resultOf feat p1 u' := by
  funext i
  unfold resultOf
  refine congrArg (fun s => relu (feat i + (0 + s))) (Finset.sum_congr rfl fun e he => ?_)
  have he' : (p1 (ix1 e)).toInt = (((i 0).val : Nat) : Int) := (Finset.mem_filter.mp he).2
  have hlt : (i 0).val < 100000 := idx2_lt0 i
  exact h e (i 1) (by omega) (by omega)

/-- An index in [−100000, 100000) wraps into [0, 99999]. -/
theorem wrapIx_range (w : BitVec 32) (h1 : -100000 ≤ w.toInt) (h2 : w.toInt < 100000) :
    0 ≤ (wrapIx w).toInt ∧ (wrapIx w).toInt ≤ 99999 := by
  unfold wrapIx
  by_cases hneg : IntOp.cmpi .slt w 0#32 = 1#1
  · have hw : w.toInt < 0 := by
      have := IntOp.cmpi_slt.1 hneg
      simpa using this
    rw [hneg, select_one]
    have e : (IntOp.addi w 100000#32).toInt = w.toInt + 100000 := by
      rw [IntOp.addi, BitVec.toInt_add]
      have h5 : (100000#32 : BitVec 32).toInt = 100000 := by decide
      rw [h5]
      exact Int.bmod_eq_of_le (by omega) (by omega)
    rw [e]
    omega
  · have hw : 0 ≤ w.toInt := by
      by_contra hc
      exact hneg (IntOp.cmpi_slt.2 (by simpa using (by omega : w.toInt < 0)))
    rw [eq_zero_of_ne_one hneg, select_zero]
    omega

/-- A nonnegative index is not moved by the wrap. -/
theorem wrapIx_of_nonneg (w : BitVec 32) (h : 0 ≤ w.toInt) : wrapIx w = w := by
  unfold wrapIx
  have hneg : ¬ IntOp.cmpi .slt w 0#32 = 1#1 := fun e => by
    have := IntOp.cmpi_slt.1 e
    have h0 : (0#32 : BitVec 32).toInt = 0 := by decide
    omega
  rw [eq_zero_of_ne_one hneg, select_zero]

/-- An index that is a row number names that row. -/
theorem rowOf_of_eq (w : BitVec 32) (n : Nat) (hn : n < 100000) (h : w.toInt = (n : Int)) : (rowOf w).val = n := by
  show min (wrapIx w).toInt.toNat 99999 = n
  rw [wrapIx_of_nonneg w (by omega), h]
  omega

end Cert.EdgeConv

end
-- ==== Proof.LibRowGather.lean ====
/-
  A row gather read at an entry.

  `x[idx]` for an integer vector `idx : [R]` and an operand `x` whose LEADING axis is gathered lowers to
  `stablehlo.gather` with the start indices reshaped to `[R, 1]` (index vector on axis 1), the leading operand axis
  collapsed and named by the start index map, and every other operand axis an offset axis taken whole.  Result row
  `r` is then operand row `idx[r, 0]`, read as a signed integer and clamped into `[0, N − 1]` (StableHLO clamps
  every start index so that the slice fits), and the remaining coordinates pass through unchanged.  Stated for an
  operand of rank three (`[N, A, B]`, result `[R, A, B]`) and of rank two (`[N, B]`, result `[R, B]`).
-/
import Idealize.ShloMosaic.Lib.ValueIdx

noncomputable section

namespace Cert.LibRowGather

open Idealize.ShloMosaic Idealize.ShloMosaic.ValueIdx

variable {α : Type}

/-- The dimension numbers of a leading-axis row gather out of `[N, A, B]` by start indices `[R, 1]`. -/
abbrev rowDims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Result entry `(r, a, b)` of the row gather is operand entry `(clamp idx[r, 0], a, b)`. -/
theorem rowGather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (rowDims3 N A B R wf) x idx (ix3 r a b)
      = x (ix3 ⟨min (idx (ix2 r (0 : Fin 1))).toInt.toNat (N - 1), by omega⟩ a b) := by
  unfold Host.gather
  congr 1
  funext ax
  refine Fin.ext ?_
  show (rowDims3 N A B R wf).start (ix3 r a b) idx ax + (rowDims3 N A B R wf).batchCoord (ix3 r a b) ax
    + (rowDims3 N A B R wf).offCoord (ix3 r a b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 3) ∈ (rowDims3 N A B R wf).startIndexMap from List.mem_singleton.mpr rfl)]
    have hsi : (rowDims3 N A B R wf).siIdx (ix3 r a b) ⟨List.idxOf (⟨0, by decide⟩ : Fin 3) (rowDims3 N A B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl
  | ⟨2, _⟩ =>
    unfold GatherDims.start
    rw [dif_neg (fun h => absurd (congrArg Fin.val (List.mem_singleton.mp h)) (Nat.succ_ne_zero _)), Nat.zero_add]
    rfl

/-- The dimension numbers of a leading-axis row gather out of `[N, B]` by start indices `[R, 1]`. -/
abbrev rowDims2 (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- Result entry `(r, b)` of the row gather is operand entry `(clamp idx[r, 0], b)`. -/
theorem rowGather2_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (r : Fin R) (b : Fin B) :
    Host.gather (rowDims2 N B R wf) x idx (ix2 r b)
      = x (ix2 ⟨min (idx (ix2 r (0 : Fin 1))).toInt.toNat (N - 1), by omega⟩ b) := by
  unfold Host.gather
  congr 1
  funext ax
  refine Fin.ext ?_
  show (rowDims2 N B R wf).start (ix2 r b) idx ax + (rowDims2 N B R wf).batchCoord (ix2 r b) ax
    + (rowDims2 N B R wf).offCoord (ix2 r b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 2) ∈ (rowDims2 N B R wf).startIndexMap from List.mem_singleton.mpr rfl)]
    have hsi : (rowDims2 N B R wf).siIdx (ix2 r b) ⟨List.idxOf (⟨0, by decide⟩ : Fin 2) (rowDims2 N B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl

end Cert.LibRowGather

end
-- ==== Proof.LibTakeFill.lean ====
/-
  General facts about a row gather that fills out-of-range rows (`jnp.take` in its default mode), for indices that are
  in range.

  Such a take lowers to: wrap negative indices (`select (w < 0) (w + n) w`), gather with the wrapped indices, and select
  between the gathered rows and a fill row by the mask "0 ≤ wrapped index ≤ n − 1", reduced by `and` over the index
  vector's one component and broadcast along the row. When every index is in range the wrap is the identity, every mask
  bit is one, and the select returns the gathered rows.
-/
import Idealize.ShloMosaic.Lib.Pipeline.Value
import Idealize.ShloMosaic.Lib.ValueIdx
import Idealize.ShloMosaic.Lib.Affine
import Idealize.ShloMosaic.PureOps.Reduce

noncomputable section

namespace Cert.LibTakeFill

open Idealize.ShloMosaic Idealize.ShloMosaic.ValueIdx

/-- A left fold by `and` from 1 over bits that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_of_all f l fun n hn => h n (List.mem_cons_of_mem _ hn)

/-- A reduction by `and` from 1 of a mask whose bits are all 1 is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_of_all x _ fun n _ => hx n

/-- A select whose mask is 1 everywhere is its first branch. -/
theorem select_of_all_one {S : Shape} {α : Type} (M : IVec S 1) (G Fill : S.Idx → α) (hM : ∀ i, M i = 1#1) :
    select M G Fill = G :=
  funext fun i => by rw [select_apply, hM i, select_one]

/-- THE FILLING SELECT: with every index between its bounds, the rows gathered are what the select returns. -/
theorem take_fill_eq {n d : Nat} {α : Type} (idx lo hi : IVec ⟨2, ![n, 1]⟩ 32) (one : IVec ⟨0, ![]⟩ 1)
    (hred : (⟨2, ![n, 1]⟩ : Shape).ReducesTo ([1] : List (Fin 2)) ⟨1, ![n]⟩) (hu : 0 < (⟨0, ![]⟩ : Shape).numel)
    (hb : (⟨1, ![n]⟩ : Shape).BroadcastsInDim ⟨2, ![n, d]⟩ ![0]) (G Fill : (⟨2, ![n, d]⟩ : Shape).Idx → α)
    (hlo : ∀ i, IntOp.cmpi .sge (idx i) (lo i) = 1#1) (hhi : ∀ i, IntOp.cmpi .sle (idx i) (hi i) = 1#1)
    (hone : one (Shape.Idx.first hu) = 1#1) :
    select (broadcastInDim ⟨2, ![n, d]⟩ ![0] hb
      (Host.reduce IntOp.andi (andi (cmpi .sge idx lo) (cmpi .sle idx hi)) one hred hu)) G Fill = G := by
  refine select_of_all_one _ _ _ fun i => ?_
  refine (broadcastInDim_apply _ hb _ i (ix1 (i 0)) (fun a => by
    match a with
    | ⟨0, _⟩ =>
      show (i 0).val = if n = 1 then 0 else (i 0).val
      have hi0 : (i 0).val < n := (i 0).isLt
      split
      · omega
      · rfl)).trans ?_
  refine reduce_andi_of_all _ _ hred hu (fun i' => ?_) hone _
  show IntOp.andi (IntOp.cmpi .sge (idx i') (lo i')) (IntOp.cmpi .sle (idx i') (hi i')) = 1#1
  rw [hlo i', hhi i']
  decide

/-- The wrap of negative indices leaves a nonnegative index alone. -/
theorem wrap_of_nonneg (w n : BitVec 32) (h : IntOp.cmpi .sge w 0#32 = 1#1) :
    Scalar.select (IntOp.cmpi .slt w 0#32) (IntOp.addi w n) w = w := by
  have h0 : IntOp.cmpi .slt w 0#32 = 0#1 := by
    refine eq_zero_of_ne_one fun e => ?_
    have h1 := IntOp.cmpi_sge.1 h
    have h2 := IntOp.cmpi_slt.1 e
    omega
  rw [h0, select_zero]

/-- Below `n` is at most `n − 1`, read signed. -/
theorem sle_pred_of_slt (w n p : BitVec 32) (h : IntOp.cmpi .slt w n = 1#1) (hp : n.toInt = p.toInt + 1) :
    IntOp.cmpi .sle w p = 1#1 := by
  rw [IntOp.cmpi_sle]
  have h1 := IntOp.cmpi_slt.1 h
  omega

end Cert.LibTakeFill

end
-- ==== Proof.TakeFill.lean ====
/-
  A row gather that fills the rows of out-of-range indices (a take in its default mode), as the host computes it, and
  what it holds at a row whose index is in range.

  The indices are wrapped ("w if w ≥ 0, else w + 100000"), the rows at the wrapped indices (clamped) are gathered, and a
  row is kept when its wrapped index lies in [0, 99999] and replaced by a fill row otherwise: the test is the "and" of
  the two comparisons, reduced over the index vector's one component and broadcast along the row.  At an edge whose
  index, read signed, lies in [−100000, 100000) the wrapped index is in [0, 99999], the test is 1 and the row is the
  gathered row: the row of the features that the index names.
-/
import proofs.«419853_j68375879352644_1_alg».proof.Proof.Gen.KernelIdeal
import proofs.«419853_j68375879352644_1_alg».proof.Proof.Spec
import proofs.«419853_j68375879352644_1_alg».proof.Proof.LibRowGather
import proofs.«419853_j68375879352644_1_alg».proof.Proof.LibTakeFill
import Idealize.ShloMosaic.Lib.Pipeline.Value
import Idealize.ShloMosaic.Lib.ValueIdx
import Idealize.ShloMosaic.Lib.Affine
import Idealize.ShloMosaic.PureOps.Reduce

noncomputable section

namespace Cert.KernelIdeal.TakeFill

open Idealize.ShloMosaic Idealize.ShloMosaic.ValueIdx
open Cert.KernelIdeal Cert.KernelIdeal.Gen Cert.EdgeConv

/-- The wrapped indices, one per edge, as a column. -/
def wrapped (p : IVec S500000 32) : IVec S500000x1 32 :=
  broadcastInDim S500000x1 ![0] bcast_S500000_S500000x1_0
    (select (cmpi .slt p (broadcastInDim S500000 ![] bcast_S_S500000 (constantI S_ 32 0#32)))
      (addi p (broadcastInDim S500000 ![] bcast_S_S500000 (constantI S_ 32 100000#32))) p)

/-- The test "the wrapped index lies in [0, 99999]", one bit per edge. -/
def inRange (p : IVec S500000 32) : IVec S500000 1 :=
  Host.reduce IntOp.andi
    (andi (cmpi .sge (wrapped p) (broadcastInDim S500000x1 ![] bcast_S_S500000x1 (constantI S_ 32 0#32)))
      (cmpi .sle (wrapped p) (broadcastInDim S500000x1 ![0, 1] bcast_S1x1_S500000x1_0_1
        (broadcastInDim S1x1 ![1] bcast_S1_S1x1_1 (constantI S1 32 99999#32)))))
    (constantI S_ 1 1#1) reducesTo_S500000x1_S500000_d1 h_S_

/-- The gathered rows, a row replaced by the fill where the test fails. -/
def takeFill (feat : FVec Ideal S100000x128 .f32) (p : IVec S500000 32) : FVec Ideal S500000x128 .f32 :=
  select (broadcastInDim S500000x128 ![0] bcast_S500000_S500000x128_0 (inRange p))
    (Host.gather gather_S100000x128_S500000x1_S500000x128_1_0_n_n_0_1_1128 feat (wrapped p))
    (broadcastInDim S500000x128 ![] bcast_S_S500000x128 (constant (F := Ideal) S_ .f32 0x7FC00000#32))

/-- A scalar word broadcast over the edges reads, at any edge, the word. -/
theorem splat_apply (w : BitVec 32) (e : Fin 500000) :
    broadcastInDim S500000 ![] bcast_S_S500000 (constantI S_ 32 w) (ix1 e) = w :=
  broadcastInDim_apply _ bcast_S_S500000 _ (ix1 e) ix0 (fun a => a.elim0)

/-- Edge e's wrapped index. -/
theorem wrapped_apply (p : IVec S500000 32) (e : Fin 500000) : wrapped p (ix2 e (0 : Fin 1)) = wrapIx (p (ix1 e)) := by
  unfold wrapped
  rw [broadcastInDim_apply _ bcast_S500000_S500000x1_0 _ (ix2 e (0 : Fin 1)) (ix1 e) (fun a => match a with
    | ⟨0, _⟩ => by show e.val = if (500000 : Nat) = 1 then 0 else e.val; rw [if_neg (by decide)])]
  show Scalar.select (IntOp.cmpi .slt (p (ix1 e)) (broadcastInDim S500000 ![] bcast_S_S500000 (constantI S_ 32 0#32) (ix1 e)))
      (IntOp.addi (p (ix1 e)) (broadcastInDim S500000 ![] bcast_S_S500000 (constantI S_ 32 100000#32) (ix1 e))) (p (ix1 e)) = _
  rw [splat_apply, splat_apply]
  rfl

/-- The lower bound, a scalar zero broadcast over the column, reads 0 everywhere. -/
theorem lower_apply (n : S500000x1.Idx) :
    broadcastInDim S500000x1 ![] bcast_S_S500000x1 (constantI S_ 32 0#32) n = 0#32 :=
  broadcastInDim_apply _ bcast_S_S500000x1 _ n ix0 (fun a => a.elim0)

/-- The upper bound, the one-entry vector 99999 broadcast twice, reads 99999 everywhere. -/
theorem upper_apply (n : S500000x1.Idx) :
    broadcastInDim S500000x1 ![0, 1] bcast_S1x1_S500000x1_0_1
      (broadcastInDim S1x1 ![1] bcast_S1_S1x1_1 (constantI S1 32 99999#32)) n = 99999#32 := by
  rw [broadcastInDim_apply _ bcast_S1x1_S500000x1_0_1 _ n (ix2 (0 : Fin 1) (0 : Fin 1)) (fun a => match a with
    | ⟨0, _⟩ => by show 0 = if (1 : Nat) = 1 then 0 else (n 0).val; rw [if_pos rfl]
    | ⟨1, _⟩ => by show 0 = if (1 : Nat) = 1 then 0 else (n 1).val; rw [if_pos rfl])]
  exact broadcastInDim_apply _ bcast_S1_S1x1_1 _ (ix2 (0 : Fin 1) (0 : Fin 1)) (ix1 (0 : Fin 1)) (fun a => match a with
    | ⟨0, _⟩ => by show 0 = if (1 : Nat) = 1 then 0 else 0; rw [if_pos rfl])

/-- The test is 1 at an edge whose wrapped index lies in [0, 99999]. -/
theorem inRange_apply (p : IVec S500000 32) (e : Fin 500000)
    (h0 : 0 ≤ (wrapIx (p (ix1 e))).toInt) (h1 : (wrapIx (p (ix1 e))).toInt ≤ 99999) : inRange p (ix1 e) = 1#1 := by
  unfold inRange
  rw [Host.reduce_eq_foldl]
  refine Cert.LibTakeFill.foldl_andi_of_all _ _ fun n hn => ?_
  have hd : reducesTo_S500000x1_S500000_d1.drop n = ix1 e := of_decide_eq_true (List.mem_filter.1 hn).2
  have hn0 : (n 0).val = e.val := congrArg Fin.val (congrFun hd ⟨0, by decide⟩)
  have hn1 : (n 1).val = 0 := by have := (n 1).isLt; simp at this; omega
  have hne : n = ix2 e (0 : Fin 1) := by
    rw [eq_ix2 n]
    exact congr (congrArg ix2 (Fin.ext hn0)) (Fin.ext hn1)
  rw [hne]
  show IntOp.andi (IntOp.cmpi .sge (wrapped p (ix2 e (0 : Fin 1))) (broadcastInDim S500000x1 ![] bcast_S_S500000x1 (constantI S_ 32 0#32) (ix2 e (0 : Fin 1))))
    (IntOp.cmpi .sle (wrapped p (ix2 e (0 : Fin 1))) (broadcastInDim S500000x1 ![0, 1] bcast_S1x1_S500000x1_0_1
      (broadcastInDim S1x1 ![1] bcast_S1_S1x1_1 (constantI S1 32 99999#32)) (ix2 e (0 : Fin 1)))) = 1#1
  rw [wrapped_apply, lower_apply, upper_apply]
  have z : (0#32 : BitVec 32).toInt = 0 := by decide
  have u : (99999#32 : BitVec 32).toInt = 99999 := by decide
  rw [IntOp.andi_eq_one]
  exact ⟨IntOp.cmpi_sge.2 (by rw [z]; exact h0), IntOp.cmpi_sle.2 (by rw [u]; exact h1)⟩

/-- THE FILLING GATHER AT A VALID EDGE: the row of the features that the edge's index names. -/
theorem takeFill_apply (feat : FVec Ideal S100000x128 .f32) (p : IVec S500000 32) (e : Fin 500000) (k : Fin 128)
    (h1 : -100000 ≤ (p (ix1 e)).toInt) (h2 : (p (ix1 e)).toInt < 100000) :
    takeFill feat p (ix2 e k) = gatherRows feat p (ix2 e k) := by
  obtain ⟨r0, r1⟩ := wrapIx_range (p (ix1 e)) h1 h2
  unfold takeFill
  rw [select_apply]
  rw [broadcastInDim_apply _ bcast_S500000_S500000x128_0 (inRange p) (ix2 e k) (ix1 e) (fun a => match a with
    | ⟨0, _⟩ => by show e.val = if (500000 : Nat) = 1 then 0 else e.val; rw [if_neg (by decide)])]
  rw [inRange_apply p e r0 r1, select_one]
  rw [show gather_S100000x128_S500000x1_S500000x128_1_0_n_n_0_1_1128
      = Cert.LibRowGather.rowDims2 100000 128 500000 gather_S100000x128_S500000x1_S500000x128_1_0_n_n_0_1_1128_wf from rfl,
    Cert.LibRowGather.rowGather2_apply (by decide)]
  refine congrArg feat (congrArg (fun r : Fin 100000 => ix2 r k) (Fin.ext ?_))
  show min (wrapped p (ix2 e (0 : Fin 1))).toInt.toNat 99999 = min (wrapIx (p (ix1 e))).toInt.toNat 99999
  exact congrArg (fun w : BitVec 32 => min w.toInt.toNat 99999) (wrapped_apply p e)

end Cert.KernelIdeal.TakeFill

end
-- ==== Proof.HostWalk.lean ====
/-
  What each array of the two launches holds when its launch is entered, as a function of the program's arguments.

  Before the first launch the host slices W0 into its left and right halves and transposes them, transposes W1, and
  gathers (with a fill) the rows of the features at the source and at the target indices; the two bias vectors are
  arguments.  Between the launches it scatter-adds the first launch's output into zeros at the source indices; the
  features are an argument.  No operation and no launch writes an argument, and each intermediate array is written once.
-/
import proofs.«419853_j68375879352644_1_alg».proof.Proof.Gen.KernelIdeal.Frame
import proofs.«419853_j68375879352644_1_alg».proof.Proof.TakeFill
import Idealize.ShloMosaic.Lib.StableHlo.Run

set_option maxRecDepth 16384

noncomputable section

namespace Cert.KernelIdeal.HostWalk

open Idealize.ShloMosaic Idealize.ShloMosaic.TcCoe Idealize.ShloMosaic.StableHlo Idealize.SL.Sem
open Cert.KernelIdeal Cert.KernelIdeal.Gen Cert.KernelIdeal.TakeFill

variable (m : (ℓ : Loc nD τ sig) → Buf (Elt Ideal) ℓ) (ρ : Dev nD → PrngReg)

/-- "No operation of this stretch writes the buffer, so the stretch leaves it as it was." -/
local macro "not_written " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Arguments, as launched -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by not_written hostOps0
    _ = m ((c : Thread nD τ).loc main_arg0) := rfl
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by not_written hostOps0
    _ = m ((c : Thread nD τ).loc main_arg1) := rfl
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by not_written hostOps0
    _ = m ((c : Thread nD τ).loc main_arg3) := rfl
theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by not_written hostOps0
    _ = m ((c : Thread nD τ).loc main_arg5) := rfl
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := by not_written hostOps0_1
    _ = m ((c : Thread nD τ).loc main_arg0) := W1_main_arg0 m ρ c
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by not_written hostOps0_1
    _ = W0 m ρ c (Proc.devRef .tc main_arg6) := by not_written hostOps0
    _ = m ((c : Thread nD τ).loc main_arg6) := rfl
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by not_written hostOps0_2
    _ = W1 m ρ c (Proc.devRef .tc main_arg0) := by not_written hostOps0_1
    _ = W0 m ρ c (Proc.devRef .tc main_arg0) := by not_written hostOps0
    _ = m ((c : Thread nD τ).loc main_arg0) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by not_written hostOps0_2
    _ = W1 m ρ c (Proc.devRef .tc main_arg2) := by not_written hostOps0_1
    _ = W0 m ρ c (Proc.devRef .tc main_arg2) := by not_written hostOps0
    _ = m ((c : Thread nD τ).loc main_arg2) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by not_written hostOps0_2
    _ = W1 m ρ c (Proc.devRef .tc main_arg4) := by not_written hostOps0_1
    _ = W0 m ρ c (Proc.devRef .tc main_arg4) := by not_written hostOps0
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by not_written hostOps0_2
    _ = W1 m ρ c (Proc.devRef .tc main_arg5) := by not_written hostOps0_1
    _ = W0 m ρ c (Proc.devRef .tc main_arg5) := by not_written hostOps0
    _ = m ((c : Thread nD τ).loc main_arg5) := rfl

/-! ## The first launch's weight blocks -/

/-- The transposed left half of W0. -/
theorem W3_main_v1 (c : Dev nD) : W3 m ρ c (Proc.devRef .tc main_v1)
    = transpose S128x128 [1, 0] (extractStridedSlice S128x128 ![0, 0] (m ((c : Thread nD τ).loc main_arg1)) slices_S128x256_S128x128_0_0)
        transposes_S128x128_S128x128_1_0 :=
  calc W3 m ρ c (Proc.devRef .tc main_v1)
    _ = W2 m ρ c (Proc.devRef .tc main_v1) := by not_written hostOps0_2
    _ = W1 m ρ c (Proc.devRef .tc main_v1) := by not_written hostOps0_1
    _ = _ := by
      show StableHlo.after hostOps0 (W0 m ρ c) (Proc.devRef .tc main_v1) = _
      after_results

/-- The transposed right half of W0. -/
theorem W3_main_v3 (c : Dev nD) : W3 m ρ c (Proc.devRef .tc main_v3)
    = transpose S128x128 [1, 0] (extractStridedSlice S128x128 ![0, 128] (m ((c : Thread nD τ).loc main_arg1)) slices_S128x256_S128x128_0_128)
        transposes_S128x128_S128x128_1_0 :=
  calc W3 m ρ c (Proc.devRef .tc main_v3)
    _ = W2 m ρ c (Proc.devRef .tc main_v3) := by not_written hostOps0_2
    _ = W1 m ρ c (Proc.devRef .tc main_v3) := by not_written hostOps0_1
    _ = _ := by
      show StableHlo.after hostOps0 (W0 m ρ c) (Proc.devRef .tc main_v3) = _
      after_results

/-- The transpose of W1. -/
theorem W3_main_v4 (c : Dev nD) : W3 m ρ c (Proc.devRef .tc main_v4)
    = transpose S128x128 [1, 0] (m ((c : Thread nD τ).loc main_arg3)) transposes_S128x128_S128x128_1_0 :=
  calc W3 m ρ c (Proc.devRef .tc main_v4)
    _ = W2 m ρ c (Proc.devRef .tc main_v4) := by not_written hostOps0_2
    _ = W1 m ρ c (Proc.devRef .tc main_v4) := by not_written hostOps0_1
    _ = _ := by
      show StableHlo.after hostOps0 (W0 m ρ c) (Proc.devRef .tc main_v4) = _
      after_results

/-! ## The gathered rows -/

set_option maxHeartbeats 4000000 in
set_option maxRecDepth 1000000 in
/-- The first filling gather's stretch, over what it finds at the features and at the source indices. -/
theorem take_source (c : Dev nD) : W2 m ρ c (Proc.devRef .tc main_v5)
    = takeFill (W1 m ρ c (Proc.devRef .tc main_arg0)) (W1 m ρ c (Proc.devRef .tc main_arg5)) := by
  show StableHlo.after hostOps0_1 (W1 m ρ c) (Proc.devRef .tc main_v5) = _
  unfold takeFill inRange wrapped
  after_results_simp <;> rfl

/-- The rows at the source indices, with the fill. -/
theorem W3_main_v5 (c : Dev nD) : W3 m ρ c (Proc.devRef .tc main_v5)
    = takeFill (m ((c : Thread nD τ).loc main_arg0)) (m ((c : Thread nD τ).loc main_arg5)) :=
  calc W3 m ρ c (Proc.devRef .tc main_v5)
    _ = W2 m ρ c (Proc.devRef .tc main_v5) := by not_written hostOps0_2
    _ = takeFill (W1 m ρ c (Proc.devRef .tc main_arg0)) (W1 m ρ c (Proc.devRef .tc main_arg5)) := take_source m ρ c
    _ = _ := by rw [W1_main_arg0, W1_main_arg5]

set_option maxHeartbeats 4000000 in
set_option maxRecDepth 1000000 in
/-- The second filling gather's stretch, over what it finds at the features and at the target indices. -/
theorem take_target (c : Dev nD) : W3 m ρ c (Proc.devRef .tc main_v6)
    = takeFill (W2 m ρ c (Proc.devRef .tc main_arg0)) (W2 m ρ c (Proc.devRef .tc main_arg6)) := by
  show StableHlo.after hostOps0_2 (W2 m ρ c) (Proc.devRef .tc main_v6) = _
  unfold takeFill inRange wrapped
  after_results_simp <;> rfl

/-- The rows at the target indices, with the fill. -/
theorem W3_main_v6 (c : Dev nD) : W3 m ρ c (Proc.devRef .tc main_v6)
    = takeFill (m ((c : Thread nD τ).loc main_arg0)) (m ((c : Thread nD τ).loc main_arg6)) :=
  (take_target m ρ c).trans (by rw [W2_main_arg0, W2_main_arg6])

/-! ## Between the launches -/

theorem W4_main_arg0 (c : Dev nD) : W4 m ρ c (Proc.devRef .tc main_arg0) = m ((c : Thread nD τ).loc main_arg0) :=
  (W4_of_ne m ρ c main_arg0 (by decide)).trans (W3_main_arg0 m ρ c)
theorem W4_main_arg5 (c : Dev nD) : W4 m ρ c (Proc.devRef .tc main_arg5) = m ((c : Thread nD τ).loc main_arg5) :=
  (W4_of_ne m ρ c main_arg5 (by decide)).trans (W3_main_arg5 m ρ c)

/-- The features at the second launch's entry. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by not_written hostOps1
    _ = m ((c : Thread nD τ).loc main_arg0) := W4_main_arg0 m ρ c

/-- The aggregated messages at the second launch's entry: the first launch's output scatter-added into zeros at the
    source indices. -/
theorem W5_main_v10 (c : Dev nD) : W5 m ρ c (Proc.devRef .tc main_v10)
    = Host.scatterAdd scatter_S100000x128_S500000x1_S500000x128_1_0_0_1
        (broadcastInDim S100000x128 ![] bcast_S_S100000x128 (constant (F := Ideal) S_ .f32 0x00000000#32))
        (broadcastInDim S500000x1 ![0] bcast_S500000_S500000x1_0 (m ((c : Thread nD τ).loc main_arg5)))
        ((dat0 (V3 m ρ) c).arrAt 7 cfg0.N) :=
  calc W5 m ρ c (Proc.devRef .tc main_v10)
    _ = Host.scatterAdd scatter_S100000x128_S500000x1_S500000x128_1_0_0_1
        (broadcastInDim S100000x128 ![] bcast_S_S100000x128 (constant (F := Ideal) S_ .f32 0x00000000#32))
        (broadcastInDim S500000x1 ![0] bcast_S500000_S500000x1_0 (W4 m ρ c (Proc.devRef .tc main_arg5)))
        (W4 m ρ c (Proc.devRef .tc main_v7)) := by
      show StableHlo.after hostOps1 (W4 m ρ c) (Proc.devRef .tc main_v10) = _
      after_results
    _ = _ := by rw [W4_main_arg5, show W4 m ρ c (Proc.devRef .tc main_v7) = (dat0 (V3 m ρ) c).arrAt 7 cfg0.N from W4_arr m ρ c 7]

end Cert.KernelIdeal.HostWalk

end
-- ==== Proof.MlpStored.lean ====
/-
  What the first launch's body stores, read at an entry.  The body loads a block of 4000 edges' first rows x1 and second
  rows x2, three 128 × 128 matrices A, B, C (indexed [contraction, output]) and two bias vectors, and stores

      positive part of ( (positive part of (x1·A + (x2 − x1)·B + b0)) · C + b1 ).

  Over the extended reals a change of float format is the identity and each matrix product into the zero accumulator
  is, at entry (p, q), the sum over k of the left operand at (p, k) times the right operand at (k, q).  So the stored
  value at (p, q) is the message of an edge whose two rows are rows p of the two loaded blocks.
-/
import proofs.«419853_j68375879352644_1_alg».proof.Proof.Gen.KernelIdeal.Skeleton
import proofs.«419853_j68375879352644_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MlpStored

open Idealize.ShloMosaic Idealize.ShloMosaic.ValueIdx
open Cert.KernelIdeal Cert.KernelIdeal.Gen Cert.EdgeConv
open scoped BigOperators

/-! ## The product's operand indices, axis by axis -/

theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000, 128] × [128, 128] product into the zero accumulator at entry (p, q), whatever the operands' formats: the sum
    over k of the left operand at (p, k) times the right operand at (k, q). -/
theorem product_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A bias vector cast to one row and broadcast down the block reads, at (p, q), the bias at q. -/
theorem bias_apply (b : Vec Ideal S128 .f32) (p : Fin 4000) (q : Fin 128) :
    broadcastTo S4000x128 (shapeCast S1x128 b shapeCasts_S128_S1x128) broadcasts_S1x128_S4000x128 (ix2 p q) = b (ix1 q) := by
  rw [broadcastTo_1b_ab_apply, shapeCast_a_1a_apply]

/-- THE STORED VALUE at (p, q): the message of the edge whose two rows are rows p of the two loaded blocks. -/
theorem stored_apply (x0 x1 : Vec Ideal S4000x128 .f32) (A B : Vec Ideal S128x128 .f32) (b0 : Vec Ideal S128 .f32)
    (C : Vec Ideal S128x128 .f32) (b1 : Vec Ideal S128 .f32) (p : Fin 4000) (q : Fin 128) :
    k0_pay1 x0 x1 A B b0 C b1 (ix2 p q)
      = edgeRow A B b0 C b1 (fun k => x0 (ix2 p k)) (fun k => x1 (ix2 p k)) q := by
  unfold k0_pay1 edgeRow
  simp only [shapeCast_self]
  simp only [maximumf, addf, subf, truncf, broadcast, product_apply, Ideal.maximumf_def, Ideal.addf_def,
    Ideal.subf_def, Ideal.truncf_def, Ideal.ofBits_def, Ideal.ofBits_zero_f32, relu]
  rw [bias_apply b1 p q]
  refine congrArg (fun s => max (s + b1 (ix1 q)) 0) (Finset.sum_congr rfl fun k _ => ?_)
  rw [bias_apply b0 p k]

end Cert.KernelIdeal.MlpStored

end
-- ==== Proof.Region0.lean ====
/-
  The first launch: 125 grid points, point t holding edges 4000·t … 4000·t + 3999 of the two arrays of edge rows and of
  the output, and at every point the whole of the three 128 × 128 matrices and the two bias vectors.  At each point the
  body stores the messages of its 4000 edges, so after the launch the output array holds the messages of all edges as
  one function of the seven input arrays as the launch found them.
-/
import proofs.«419853_j68375879352644_1_alg».proof.Proof.Gen.KernelIdeal.Frame
import proofs.«419853_j68375879352644_1_alg».proof.Proof.MlpStored
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.EdgeConv Cert.KernelIdeal.MlpStored

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The stored block as one function of the loaded blocks: row p of the result from rows p of the two blocks of rows. -/
theorem stored_eq (x0 x1 : Vec Ideal S4000x128 .f32) (A B : Vec Ideal S128x128 .f32) (b0 : Vec Ideal S128 .f32)
    (C : Vec Ideal S128x128 .f32) (b1 : Vec Ideal S128 .f32) :
    k0_pay1 x0 x1 A B b0 C b1
      = fun y : S4000x128.Idx => edgeRow A B b0 C b1 (fun k => x0 (ix2 (y 0) k)) (fun k => x1 (ix2 (y 0) k)) (y 1) := by
  funext y
  obtain ⟨p, q, rfl⟩ : ∃ (p : Fin 4000) (q : Fin 128), y = ix2 p q := ⟨y 0, y 1, eq_ix2 y⟩
  exact stored_apply x0 x1 A B b0 C b1 p q

/-- The seven input arrays as the launch finds them, at their literal types. -/
abbrev rowsA (c : Dev nD) : Vec Ideal S500000x128 .f32 := V c main_v5
abbrev rowsB (c : Dev nD) : Vec Ideal S500000x128 .f32 := V c main_v6
abbrev matA (c : Dev nD) : Vec Ideal S128x128 .f32 := V c main_v1
abbrev matB (c : Dev nD) : Vec Ideal S128x128 .f32 := V c main_v3
abbrev biasA (c : Dev nD) : Vec Ideal S128 .f32 := V c main_arg2
abbrev matC (c : Dev nD) : Vec Ideal S128x128 .f32 := V c main_v4
abbrev biasC (c : Dev nD) : Vec Ideal S128 .f32 := V c main_arg4

/-- The messages of all edges from those arrays. -/
abbrev messages (c : Dev nD) : Vec Ideal S500000x128 .f32 :=
  mlpRows (matA V c) (matB V c) (biasA V c) (matC V c) (biasC V c) (rowsA V c) (rowsB V c)

/-- The index maps over the grid: the two windows of edge rows move with the output's; the five others stay at block 0. -/
theorem index_facts : ∀ t : Fin cfg0.N,
    win0_0.index t (0 : Fin 2) = win0_7.index t (0 : Fin 2) ∧ win0_0.index t (1 : Fin 2) = win0_7.index t (1 : Fin 2)
    ∧ win0_1.index t (0 : Fin 2) = win0_7.index t (0 : Fin 2) ∧ win0_1.index t (1 : Fin 2) = win0_7.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) ≤ 124 ∧ win0_7.index t (1 : Fin 2) = 0 :=
  (by decide +kernel : ∀ t : Fin grid0.N, _)

/-- Every block row of the output is some point's. -/
theorem index_onto : ∀ q : Fin 125, ∃ t : Fin cfg0.N, win0_7.index t = ![q.val, 0] :=
  (by decide +kernel : ∀ q : Fin 125, ∃ t : Fin grid0.N, win0_7.index t = ![q.val, 0])

/-! A window that holds a whole array at every point: its block is the array. -/

theorem whole2 (c : Dev nD) (t : Fin cfg0.N) : iblk0 V c 2 t = matA V c := by
  obtain ⟨-, -, -, -, e20, e21, e30, e31, e40, e50, e51, e60, -, -⟩ := index_facts t
  funext y
  show matA V c (((cfg0.win 2).blk t).view.emb y) = matA V c y
  refine congrArg (matA V c) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem whole3 (c : Dev nD) (t : Fin cfg0.N) : iblk0 V c 3 t = matB V c := by
  obtain ⟨-, -, -, -, e20, e21, e30, e31, e40, e50, e51, e60, -, -⟩ := index_facts t
  funext y
  show matB V c (((cfg0.win 3).blk t).view.emb y) = matB V c y
  refine congrArg (matB V c) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem whole4 (c : Dev nD) (t : Fin cfg0.N) : iblk0 V c 4 t = biasA V c := by
  obtain ⟨-, -, -, -, e20, e21, e30, e31, e40, e50, e51, e60, -, -⟩ := index_facts t
  funext y
  show biasA V c (((cfg0.win 4).blk t).view.emb y) = biasA V c y
  refine congrArg (biasA V c) (funext fun a => Fin.ext ?_)
  match a with
  | ⟨0, _⟩ => show win0_4.index t (0 : Fin 1) * 128 + 1 * (y 0).val = (y 0).val; omega
theorem whole5 (c : Dev nD) (t : Fin cfg0.N) : iblk0 V c 5 t = matC V c := by
  obtain ⟨-, -, -, -, e20, e21, e30, e31, e40, e50, e51, e60, -, -⟩ := index_facts t
  funext y
  show matC V c (((cfg0.win 5).blk t).view.emb y) = matC V c y
  refine congrArg (matC V c) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega
theorem whole6 (c : Dev nD) (t : Fin cfg0.N) : iblk0 V c 6 t = biasC V c := by
  obtain ⟨-, -, -, -, e20, e21, e30, e31, e40, e50, e51, e60, -, -⟩ := index_facts t
  funext y
  show biasC V c (((cfg0.win 6).blk t).view.emb y) = biasC V c y
  refine congrArg (biasC V c) (funext fun a => Fin.ext ?_)
  match a with
  | ⟨0, _⟩ => show win0_6.index t (0 : Fin 1) * 128 + 1 * (y 0).val = (y 0).val; omega

/-- What point t writes back is block t of the messages. -/
theorem flushed_eq (c : Dev nD) (t : Fin cfg0.N) :
    (dat0 V c).flushed 7 t = ((cfg0.win 7).blk t).view.read (Elt Ideal) (messages V c) := by
  show (cfg0.win 7).cut (grid0.coords t) ((dat0 V c).after 7 t) = _
  rw [after0_7]
  unfold out0_7
  rw [View.canon_unit_zero origin2]
  simp only [View.ld_unit_zero (S := S4000x128) origin2, View.ld_unit_zero (S := S128x128) origin2,
    View.ld_unit_zero (S := S128) origin1]
  rw [stored_eq, whole2 V c t, whole3 V c t, whole4 V c t, whole5 V c t, whole6 V c t]
  obtain ⟨e00, e01, e10, e11, -, -, -, -, -, -, -, -, -, e71⟩ := index_facts t
  funext j
  show edgeRow (matA V c) (matB V c) (biasA V c) (matC V c) (biasC V c)
      (fun k => rowsA V c (((cfg0.win 0).blk t).view.emb (ix2 (j 0) k)))
      (fun k => rowsB V c (((cfg0.win 1).blk t).view.emb (ix2 (j 0) k))) (j 1)
    = edgeRow (matA V c) (matB V c) (biasA V c) (matC V c) (biasC V c)
      (fun k => rowsA V c (ix2 ((((cfg0.win 7).blk t).view.emb j) 0) k))
      (fun k => rowsB V c (ix2 ((((cfg0.win 7).blk t).view.emb j) 0) k)) ((((cfg0.win 7).blk t).view.emb j) 1)
  have hA : ∀ k : Fin 128, ((cfg0.win 0).blk t).view.emb (ix2 (j 0) k) = ix2 ((((cfg0.win 7).blk t).view.emb j) 0) k := fun k => by
    funext a; apply Fin.ext
    match a with
    | ⟨0, _⟩ => show win0_0.index t (0 : Fin 2) * 4000 + 1 * (j 0).val = win0_7.index t (0 : Fin 2) * 4000 + 1 * (j 0).val; omega
    | ⟨1, _⟩ => show win0_0.index t (1 : Fin 2) * 128 + 1 * k.val = k.val; omega
  have hB : ∀ k : Fin 128, ((cfg0.win 1).blk t).view.emb (ix2 (j 0) k) = ix2 ((((cfg0.win 7).blk t).view.emb j) 0) k := fun k => by
    funext a; apply Fin.ext
    match a with
    | ⟨0, _⟩ => show win0_1.index t (0 : Fin 2) * 4000 + 1 * (j 0).val = win0_7.index t (0 : Fin 2) * 4000 + 1 * (j 0).val; omega
    | ⟨1, _⟩ => show win0_1.index t (1 : Fin 2) * 128 + 1 * k.val = k.val; omega
  have hcol : (j 1 : Fin 128) = (((cfg0.win 7).blk t).view.emb j) 1 := by
    apply Fin.ext
    show (j 1).val = win0_7.index t (1 : Fin 2) * 128 + 1 * (j 1).val
    omega
  rw [funext fun k => congrArg (rowsA V c) (hA k), funext fun k => congrArg (rowsB V c) (hB k), hcol]
  rfl

/-- An index is in point t's block iff each coordinate is in the block's range on its axis. -/
theorem mem_block (t : Fin cfg0.N) (i : S500000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v7).slice (win0_7.rect t)).set ↔ _
  rw [View.set_slice_whole, Rect.mem_set_unit]
  exact Iff.rfl

/-- Every index of the output array is in some point's block: edge e in point e / 4000's. -/
theorem covered (i : S500000x128.Idx) :
    ∃ t : Fin cfg0.N, (cfg0.win 7).flush t = true ∧ i ∈ ((cfg0.win 7).blk t).view.set := by
  have hi0 : (i 0).val < 500000 := (i 0).isLt
  have hi1 : (i 1).val < 128 := (i 1).isLt
  obtain ⟨t, ht⟩ := index_onto ⟨(i 0).val / 4000, by omega⟩
  have q0 : win0_7.index t (0 : Fin 2) = (i 0).val / 4000 := congrFun ht 0
  have q1 : win0_7.index t (1 : Fin 2) = 0 := congrFun ht 1
  refine ⟨t, flush0_7 t, ?_⟩
  rw [mem_block]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-- THE OUTPUT ARRAY after the launch: the messages of all edges. -/
theorem final (c : Dev nD) : (dat0 V c).arrAt 7 cfg0.N = messages V c :=
  (dat0 V c).arrAt_eq_of_cover 7 (messages V c) (fun t _ => flushed_eq V c t) (covered)

end Cert.KernelIdeal.Region0

end
-- ==== Proof.Region1.lean ====
/-
  The second launch: 20 grid points, point t holding rows 5000·t … 5000·t + 4999 of its three arrays.  At each point the
  body stores the positive part of (block of the first array + block of the second array), so after the launch the
  output array holds, index by index, the positive part of the sum of the two input arrays as the launch found them.
-/
import proofs.«419853_j68375879352644_1_alg».proof.Proof.Gen.KernelIdeal.Frame
import proofs.«419853_j68375879352644_1_alg».proof.Proof.Spec
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.SL.Sem
open Cert.KernelIdeal Cert.KernelIdeal.Gen Cert.EdgeConv

variable (V : (c : Dev nD) → (b : Ref sig .tc) → Buf (Elt Ideal) ((c : Thread nD τ).loc b))

theorem origin : (![0, 0] : Fin 2 → Nat) = fun _ => 0 := funext fun a => by fin_cases a <;> rfl

/-- The body's stored value at an index of the block: the positive part of the sum of the two loaded blocks there. -/
theorem stored_apply (x0 x1 : Vec Ideal S5000x128 .f32) (y : S5000x128.Idx) :
    k1_pay1 x0 x1 y = relu (x0 y + x1 y) := by
  unfold k1_pay1
  simp only [maximumf, addf, broadcast, shapeCast_self, Ideal.maximumf_def, Ideal.addf_def, Ideal.ofBits_def,
    Ideal.ofBits_zero_f32, relu]

/-- The same as an equation of blocks. -/
theorem stored_eq (x0 x1 : Vec Ideal S5000x128 .f32) : k1_pay1 x0 x1 = fun y => relu (x0 y + x1 y) :=
  funext (stored_apply x0 x1)

/-- The three windows move together: at point t each holds block (t, 0). -/
theorem index_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 19 ∧ win1_2.index t (1 : Fin 2) = 0 :=
  (by decide +kernel : ∀ t : Fin grid1.N, _)

/-- Every block row of the output is some point's. -/
theorem index_onto : ∀ q : Fin 20, ∃ t : Fin cfg1.N, win1_2.index t = ![q.val, 0] :=
  (by decide +kernel : ∀ q : Fin 20, ∃ t : Fin grid1.N, win1_2.index t = ![q.val, 0])

/-- The two input arrays as the launch finds them, at their literal type. -/
abbrev firstArr (c : Dev nD) : Vec Ideal S100000x128 .f32 := V c main_arg0
abbrev secondArr (c : Dev nD) : Vec Ideal S100000x128 .f32 := V c main_v10

/-- The whole output array as one function of the two input arrays at the launch's entry. -/
abbrev sumRelu (c : Dev nD) : Vec Ideal S100000x128 .f32 := fun i => relu (firstArr V c i + secondArr V c i)

/-- What point t writes back is block t of that function. -/
theorem flushed_eq (c : Dev nD) (t : Fin cfg1.N) :
    (dat1 V c).flushed 2 t = ((cfg1.win 2).blk t).view.read (Elt Ideal) (sumRelu V c) := by
  show (cfg1.win 2).cut (grid1.coords t) ((dat1 V c).after 2 t) = _
  rw [after1_2]
  unfold out1_2
  rw [View.canon_unit_zero origin]
  simp only [View.ld_unit_zero (S := S5000x128) origin]
  rw [stored_eq]
  obtain ⟨e0, e1, e2, e3, -, -⟩ := index_facts t
  funext j
  show relu (firstArr V c (((cfg1.win 0).blk t).view.emb j) + secondArr V c (((cfg1.win 1).blk t).view.emb j))
    = relu (firstArr V c (((cfg1.win 2).blk t).view.emb j) + secondArr V c (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

/-- An index is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v11).slice (win1_2.rect t)).set ↔ _
  rw [View.set_slice_whole, Rect.mem_set_unit]
  exact Iff.rfl

/-- Every index of the output array is in some point's block: row r in point r / 5000's. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the launch: the positive part of the sum of the two input arrays, index by index. -/
theorem final (c : Dev nD) : (dat1 V c).arrAt 2 cfg1.N = sumRelu V c :=
  (dat1 V c).arrAt_eq_of_cover 2 (sumRelu V c) (fun t _ => flushed_eq V c t) (covered)

end Cert.KernelIdeal.Region1

end
-- ==== Proof.LibRowScatter.lean ====
/-
  Row scatter-adds and a row gather read at an entry.

  `segment_sum(v, ids)` and `x.at[ids].add(v)` along the LEADING axis lower to `stablehlo.scatter` with an `add` body, the
  scatter indices reshaped to `[R, 1]` (index vector on axis 1), the leading operand axis inserted and named by the
  index map, every other operand axis a window axis taken whole.  Update row `r` lands on operand row `ids[r, 0]`, read
  as a SIGNED integer and NOT clamped: a row whose index is negative or ≥ N is dropped.  So entry `n` (or `(n, b)`) of the
  result is the operand's entry plus the sum of the update entries of the rows `r` with `ids[r, 0] = n`.
  `x[ids]` for a rank-one operand lowers to `stablehlo.gather` with the same `[R, 1]` start indices: result entry `r` is
  operand entry `ids[r, 0]` read signed and clamped into `[0, N − 1]`.
-/
import Idealize.ShloMosaic.Lib.ValueIdx
import Idealize.ShloMosaic.PureOps.Ideal
import Idealize.ShloMosaic.PureOps.Ideal.Laws
import Idealize.ShloMosaic.PureOps.Contract

noncomputable section

namespace Cert.LibRowScatter

open Idealize.ShloMosaic Idealize.ShloMosaic.ValueIdx
open scoped BigOperators

/-- The dimension numbers of a leading-axis scatter of `[R]` updates into `[N]` by scatter indices `[R, 1]`. -/
abbrev rowSDims1 (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The dimension numbers of a leading-axis scatter of `[R, B]` update rows into `[N, B]` by scatter indices `[R, 1]`. -/
abbrev rowSDims2 (N B R : Nat) (wf : ScatterDims.WF ⟨2, ![N, B]⟩ ⟨2, ![R, 1]⟩ ⟨2, ![R, B]⟩ [1] [0] [0] 1) :
    ScatterDims ⟨2, ![N, B]⟩ ⟨2, ![R, 1]⟩ ⟨2, ![R, B]⟩ where
  updateWindowDims := [1]
  insertedWindowDims := [0]
  scatterDimsToOperandDims := [0]
  indexVectorDim := 1
  wf := wf

/-- The rows of the updates that land on operand row `n`: those whose index, read signed, is `n`. -/
abbrev hits {R w : Nat} (idx : IVec ⟨2, ![R, 1]⟩ w) (n : Nat) : Finset (Fin R) :=
  Finset.univ.filter fun r : Fin R => (idx (ix2 r (0 : Fin 1))).toInt = (n : Int)

/-- On the operand's one axis the window of update row `r` starts at the row's index, read signed. -/
theorem rowSDims1_start {N R w : Nat}
    (wf : ScatterDims.WF ⟨1, ![N]⟩ ⟨2, ![R, 1]⟩ ⟨1, ![R]⟩ [] [0] [0] 1)
    (idx : IVec ⟨2, ![R, 1]⟩ w) (r : Fin R) :
    (rowSDims1 N R wf).start (ix1 r) idx ⟨0, Nat.one_pos⟩ = (idx (ix2 r (0 : Fin 1))).toInt := by
  unfold ScatterDims.start
  rw [dif_pos (show (⟨0, Nat.one_pos⟩ : Fin 1) ∈ (rowSDims1 N R wf).scatterDimsToOperandDims from List.mem_singleton.mpr rfl)]
  have hsi : (rowSDims1 N R wf).siIdx (ix1 r) ⟨List.idxOf (⟨0, Nat.one_pos⟩ : Fin 1) (rowSDims1 N R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- The operand's one axis is inserted: an update row has no window coordinate on it. -/
theorem rowSDims1_window {N R : Nat}
    (wf : ScatterDims.WF ⟨1, ![N]⟩ ⟨2, ![R, 1]⟩ ⟨1, ![R]⟩ [] [0] [0] 1) (r : Fin R) :
    (rowSDims1 N R wf).window (ix1 r) ⟨0, Nat.one_pos⟩ = 0 := by
  unfold ScatterDims.window
  rw [dif_neg]
  intro h
  simp [ScatterDims.sKept, Shape.kept] at h

/-- Update row `r` lands at its index read signed: start plus window coordinate on the operand's one axis. -/
theorem rowSDims1_land {N R w : Nat}
    (wf : ScatterDims.WF ⟨1, ![N]⟩ ⟨2, ![R, 1]⟩ ⟨1, ![R]⟩ [] [0] [0] 1)
    (idx : IVec ⟨2, ![R, 1]⟩ w) (r : Fin R) (a : Fin 1) :
    (rowSDims1 N R wf).start (ix1 r) idx a + ((rowSDims1 N R wf).window (ix1 r) a : Int)
      = (idx (ix2 r (0 : Fin 1))).toInt := by
  match a with
  | ⟨0, _⟩ => rw [rowSDims1_start, rowSDims1_window]; simp

/-- Update row `r` lands on operand entry `n` exactly when its index, read signed, is `n`: a negative index or one
    past the operand's end lands nowhere. -/
theorem rowSDims1_resultIdx_iff {N R w : Nat}
    (wf : ScatterDims.WF ⟨1, ![N]⟩ ⟨2, ![R, 1]⟩ ⟨1, ![R]⟩ [] [0] [0] 1)
    (idx : IVec ⟨2, ![R, 1]⟩ w) (r : Fin R) (n : Fin N) :
    (rowSDims1 N R wf).resultIdx? (ix1 r) idx = some (ix1 n)
      ↔ (idx (ix2 r (0 : Fin 1))).toInt = (n.val : Int) := by
  unfold ScatterDims.resultIdx?
  constructor
  · intro h
    split at h
    · have h0 := congrArg Fin.val (congrFun (Option.some.inj h) ⟨0, Nat.one_pos⟩)
      rename_i hc
      have hc0 := (hc ⟨0, Nat.one_pos⟩).1
      rw [rowSDims1_land] at hc0
      have h1 : ((rowSDims1 N R wf).start (ix1 r) idx ⟨0, Nat.one_pos⟩
          + ((rowSDims1 N R wf).window (ix1 r) ⟨0, Nat.one_pos⟩ : Int)).toNat = n.val := h0
      rw [rowSDims1_land] at h1
      omega
    · exact absurd h (by simp)
  · intro h
    have hc : ∀ a : Fin 1, 0 ≤ (rowSDims1 N R wf).start (ix1 r) idx a + ((rowSDims1 N R wf).window (ix1 r) a : Int)
        ∧ (rowSDims1 N R wf).start (ix1 r) idx a + ((rowSDims1 N R wf).window (ix1 r) a : Int)
          < (((⟨1, ![N]⟩ : Shape).size a : Nat) : Int) := by
      intro a
      rw [rowSDims1_land, h]
      match a with
      | ⟨0, _⟩ =>
        refine ⟨by omega, ?_⟩
        show (n.val : Int) < ((N : Nat) : Int)
        have := n.isLt
        omega
    rw [dif_pos hc]
    congr 1
    funext a
    match a with
    | ⟨0, _⟩ =>
      refine Fin.ext ?_
      show ((rowSDims1 N R wf).start (ix1 r) idx ⟨0, Nat.one_pos⟩
          + ((rowSDims1 N R wf).window (ix1 r) ⟨0, Nat.one_pos⟩ : Int)).toNat = n.val
      rw [rowSDims1_land, h]
      omega

/-- Entry `n` of the accumulating row scatter into `[N]`: the operand's entry plus the updates of the rows that land on it. -/
theorem rowScatterAdd1_apply {N R w : Nat} {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (n : Fin N) :
    Host.scatterAdd (rowSDims1 N R wf) x idx upd (ix1 n)
      = x (ix1 n) + ∑ r ∈ hits idx n.val, upd (ix1 r) := by
  unfold Host.scatterAdd
  rw [Ideal.hostScatterAdd_def]
  unfold Ideal.hostScatterAdd
  congr 1
  refine Finset.sum_nbij' (fun j => (j 0 : Fin R)) (fun r => ix1 r) ?_ ?_ ?_ ?_ ?_
  · intro j hj
    have h := (Finset.mem_filter.mp hj).2
    rw [eq_ix1 j] at h
    exact Finset.mem_filter.mpr ⟨Finset.mem_univ _, (rowSDims1_resultIdx_iff wf idx (j 0) n).mp h⟩
  · intro r hr
    exact Finset.mem_filter.mpr ⟨Finset.mem_univ _, (rowSDims1_resultIdx_iff wf idx r n).mpr (Finset.mem_filter.mp hr).2⟩
  · intro j _
    exact (eq_ix1 j).symm
  · intro r _
    rfl
  · intro j _
    exact congrArg upd (eq_ix1 j)

/-- On the row axis the window of update entry `(r, b')` starts at row `r`'s index, read signed. -/
theorem rowSDims2_start_row {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨0, Nat.zero_lt_two⟩ = (idx (ix2 r (0 : Fin 1))).toInt := by
  unfold ScatterDims.start
  rw [dif_pos (show (⟨0, Nat.zero_lt_two⟩ : Fin 2) ∈ (rowSDims2 N B R wf).scatterDimsToOperandDims from List.mem_singleton.mpr rfl)]
  have hsi : (rowSDims2 N B R wf).siIdx (ix2 r b') ⟨List.idxOf (⟨0, Nat.zero_lt_two⟩ : Fin 2) (rowSDims2 N B R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- The column axis is not named by the index map: the window starts at `0` there. -/
theorem rowSDims2_start_col {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨1, Nat.one_lt_two⟩ = 0 := by
  unfold ScatterDims.start
  rw [dif_neg (fun h => absurd (congrArg Fin.val (List.mem_singleton.mp h)) (Nat.succ_ne_zero _))]

/-- The row axis is inserted: an update entry has no window coordinate on it. -/
theorem rowSDims2_window_row {N B R : Nat}
    (wf : ScatterDims.WF ⟨2, ![N, B]⟩ ⟨2, ![R, 1]⟩ ⟨2, ![R, B]⟩ [1] [0] [0] 1) (r : Fin R) (b' : Fin B) :
    (rowSDims2 N B R wf).window (ix2 r b') ⟨0, Nat.zero_lt_two⟩ = 0 := by
  unfold ScatterDims.window
  rw [dif_neg]
  intro h
  simp [ScatterDims.sKept, Shape.kept] at h

/-- On the column axis the window coordinate of update entry `(r, b')` is `b'`. -/
theorem rowSDims2_window_col {N B R : Nat}
    (wf : ScatterDims.WF ⟨2, ![N, B]⟩ ⟨2, ![R, 1]⟩ ⟨2, ![R, B]⟩ [1] [0] [0] 1) (r : Fin R) (b' : Fin B) :
    (rowSDims2 N B R wf).window (ix2 r b') ⟨1, Nat.one_lt_two⟩ = b'.val := by
  unfold ScatterDims.window
  rw [dif_pos (show (⟨1, Nat.one_lt_two⟩ : Fin 2) ∈ (rowSDims2 N B R wf).sKept by simp [ScatterDims.sKept, Shape.kept])]
  rfl

/-- Update entry `(r, b')` lands on the row its index names, read signed. -/
theorem rowSDims2_land_row {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨0, Nat.zero_lt_two⟩
        + ((rowSDims2 N B R wf).window (ix2 r b') ⟨0, Nat.zero_lt_two⟩ : Int)
      = (idx (ix2 r (0 : Fin 1))).toInt := by
  rw [rowSDims2_start_row, rowSDims2_window_row]; simp

/-- Update entry `(r, b')` lands on column `b'`. -/
theorem rowSDims2_land_col {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨1, Nat.one_lt_two⟩
        + ((rowSDims2 N B R wf).window (ix2 r b') ⟨1, Nat.one_lt_two⟩ : Int)
      = (b'.val : Int) := by
  rw [rowSDims2_start_col, rowSDims2_window_col]; simp

/-- Update entry `(r, b')` lands on operand entry `(n, b)` exactly when row `r`'s index, read signed, is `n` and
    `b' = b`. -/
theorem rowSDims2_resultIdx_iff {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) (n : Fin N) (b : Fin B) :
    (rowSDims2 N B R wf).resultIdx? (ix2 r b') idx = some (ix2 n b)
      ↔ (idx (ix2 r (0 : Fin 1))).toInt = (n.val : Int) ∧ b' = b := by
  unfold ScatterDims.resultIdx?
  constructor
  · intro h
    split at h
    · rename_i hc
      have h0 := congrArg Fin.val (congrFun (Option.some.inj h) ⟨0, Nat.zero_lt_two⟩)
      have h1 := congrArg Fin.val (congrFun (Option.some.inj h) ⟨1, Nat.one_lt_two⟩)
      have hc0 := (hc ⟨0, Nat.zero_lt_two⟩).1
      rw [rowSDims2_land_row] at hc0
      have e0 : ((rowSDims2 N B R wf).start (ix2 r b') idx ⟨0, Nat.zero_lt_two⟩
          + ((rowSDims2 N B R wf).window (ix2 r b') ⟨0, Nat.zero_lt_two⟩ : Int)).toNat = n.val := h0
      have e1 : ((rowSDims2 N B R wf).start (ix2 r b') idx ⟨1, Nat.one_lt_two⟩
          + ((rowSDims2 N B R wf).window (ix2 r b') ⟨1, Nat.one_lt_two⟩ : Int)).toNat = b.val := h1
      rw [rowSDims2_land_row] at e0
      rw [rowSDims2_land_col] at e1
      exact ⟨by omega, Fin.ext (by omega)⟩
    · exact absurd h (by simp)
  · rintro ⟨h, rfl⟩
    have hc : ∀ a : Fin 2, 0 ≤ (rowSDims2 N B R wf).start (ix2 r b') idx a + ((rowSDims2 N B R wf).window (ix2 r b') a : Int)
        ∧ (rowSDims2 N B R wf).start (ix2 r b') idx a + ((rowSDims2 N B R wf).window (ix2 r b') a : Int)
          < (((⟨2, ![N, B]⟩ : Shape).size a : Nat) : Int) := by
      intro a
      match a with
      | ⟨0, _⟩ =>
        rw [rowSDims2_land_row, h]
        refine ⟨by omega, ?_⟩
        show (n.val : Int) < ((N : Nat) : Int)
        have := n.isLt
        omega
      | ⟨1, _⟩ =>
        rw [rowSDims2_land_col]
        refine ⟨by omega, ?_⟩
        show (b'.val : Int) < ((B : Nat) : Int)
        have := b'.isLt
        omega
    rw [dif_pos hc]
    congr 1
    funext a
    match a with
    | ⟨0, _⟩ =>
      refine Fin.ext ?_
      show ((rowSDims2 N B R wf).start (ix2 r b') idx ⟨0, Nat.zero_lt_two⟩
          + ((rowSDims2 N B R wf).window (ix2 r b') ⟨0, Nat.zero_lt_two⟩ : Int)).toNat = n.val
      rw [rowSDims2_land_row, h]
      omega
    | ⟨1, _⟩ =>
      refine Fin.ext ?_
      show ((rowSDims2 N B R wf).start (ix2 r b') idx ⟨1, Nat.one_lt_two⟩
          + ((rowSDims2 N B R wf).window (ix2 r b') ⟨1, Nat.one_lt_two⟩ : Int)).toNat = b'.val
      rw [rowSDims2_land_col]
      omega

/-- Entry `(n, b)` of the accumulating row scatter into `[N, B]`: the operand's entry plus column `b` of the update rows
    that land on row `n`. -/
theorem rowScatterAdd2_apply {N B R w : Nat} {φ : FTy}
    (wf : ScatterDims.WF ⟨2, ![N, B]⟩ ⟨2, ![R, 1]⟩ ⟨2, ![R, B]⟩ [1] [0] [0] 1)
    (x : FVec Ideal ⟨2, ![N, B]⟩ φ) (idx : IVec ⟨2, ![R, 1]⟩ w) (upd : FVec Ideal ⟨2, ![R, B]⟩ φ) (n : Fin N) (b : Fin B) :
    Host.scatterAdd (rowSDims2 N B R wf) x idx upd (ix2 n b)
      = x (ix2 n b) + ∑ r ∈ hits idx n.val, upd (ix2 r b) := by
  unfold Host.scatterAdd
  rw [Ideal.hostScatterAdd_def]
  unfold Ideal.hostScatterAdd
  congr 1
  have hland : ∀ j : (⟨2, ![R, B]⟩ : Shape).Idx,
      (rowSDims2 N B R wf).resultIdx? j idx = some (ix2 n b) →
        (idx (ix2 (j 0) (0 : Fin 1))).toInt = (n.val : Int) ∧ j = ix2 (j 0) b := by
    intro j h
    rw [eq_ix2 j] at h
    obtain ⟨h0, h1⟩ := (rowSDims2_resultIdx_iff wf idx (j 0) (j 1) n b).mp h
    refine ⟨h0, ?_⟩
    rw [← h1]
    exact eq_ix2 j
  refine Finset.sum_nbij' (fun j => (j 0 : Fin R)) (fun r => ix2 r b) ?_ ?_ ?_ ?_ ?_
  · intro j hj
    exact Finset.mem_filter.mpr ⟨Finset.mem_univ _, (hland j (Finset.mem_filter.mp hj).2).1⟩
  · intro r hr
    exact Finset.mem_filter.mpr ⟨Finset.mem_univ _,
      (rowSDims2_resultIdx_iff wf idx r b n b).mpr ⟨(Finset.mem_filter.mp hr).2, rfl⟩⟩
  · intro j hj
    exact (hland j (Finset.mem_filter.mp hj).2).2.symm
  · intro r _
    rfl
  · intro j hj
    exact congrArg upd (hland j (Finset.mem_filter.mp hj).2).2

/-- The dimension numbers of a gather out of `[N]` by start indices `[R, 1]`. -/
abbrev rowDims1 (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result entry `r` of the gather out of `[N]` is operand entry `clamp idx[r, 0]`. -/
theorem rowGather1_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (rowDims1 N R wf) x idx (ix1 r)
      = x (ix1 ⟨min (idx (ix2 r (0 : Fin 1))).toInt.toNat (N - 1), by omega⟩) := by
  unfold Host.gather
  congr 1
  funext ax
  refine Fin.ext ?_
  show (rowDims1 N R wf).start (ix1 r) idx ax + (rowDims1 N R wf).batchCoord (ix1 r) ax
    + (rowDims1 N R wf).offCoord (ix1 r) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 1) ∈ (rowDims1 N R wf).startIndexMap from List.mem_singleton.mpr rfl)]
    have hsi : (rowDims1 N R wf).siIdx (ix1 r) ⟨List.idxOf (⟨0, by decide⟩ : Fin 1) (rowDims1 N R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl

end Cert.LibRowScatter

end
-- ==== Proof.KernelValue.lean ====
/-
  The kernel program's result as a function of its arguments.

  The second launch leaves the positive part of (features + aggregated messages).  The aggregated messages are the first
  launch's output scatter-added into zeros at the source indices: at node n, the sum of the messages of the edges whose
  source index is n.  The first launch's output is the messages of all edges computed from the transposed halves of W0,
  the transpose of W1, the two biases, and the two filling gathers of the features.

  A filling gather agrees with the plain gather at every edge whose index lies in [−100000, 100000).  Every target index
  does, by the precondition.  A source index need not; but an edge contributes to a node only if its source index is that
  node's number, which lies in [0, 100000).  So on every edge that contributes anywhere both gathers are the plain ones,
  and the result is the block's result function of the arguments.
-/
import proofs.«419853_j68375879352644_1_alg».proof.Proof.HostWalk
import proofs.«419853_j68375879352644_1_alg».proof.Proof.Region0
import proofs.«419853_j68375879352644_1_alg».proof.Proof.Region1
import proofs.«419853_j68375879352644_1_alg».proof.Proof.LibRowScatter
import Idealize.ShloMosaic.Lib.ValueLayout

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.EdgeConv Cert.KernelIdeal.TakeFill Cert.KernelIdeal.HostWalk
open scoped BigOperators

/-! ## The host's layout operations as functions -/

theorem leftT_eq (W0 : Vec Ideal S128x256 .f32) :
    transpose S128x128 [1, 0] (extractStridedSlice S128x128 ![0, 0] W0 slices_S128x256_S128x128_0_0) transposes_S128x128_S128x128_1_0
      = leftT W0 := by
  funext i
  obtain ⟨k', k, rfl⟩ : ∃ (k' k : Fin 128), i = ix2 k' k := ⟨i 0, i 1, eq_ix2 i⟩
  rw [transpose_ix2_apply, slice2_axis1_apply 0 W0 _ k k' (lo k') (by show k'.val = 0 + k'.val; omega)]
  rfl

theorem rightT_eq (W0 : Vec Ideal S128x256 .f32) :
    transpose S128x128 [1, 0] (extractStridedSlice S128x128 ![0, 128] W0 slices_S128x256_S128x128_0_128) transposes_S128x128_S128x128_1_0
      = rightT W0 := by
  funext i
  obtain ⟨k', k, rfl⟩ : ∃ (k' k : Fin 128), i = ix2 k' k := ⟨i 0, i 1, eq_ix2 i⟩
  rw [transpose_ix2_apply, slice2_axis1_apply 128 W0 _ k k' (hi k') rfl]
  rfl

theorem transposeSq_eq (W1 : Vec Ideal S128x128 .f32) :
    transpose S128x128 [1, 0] W1 transposes_S128x128_S128x128_1_0 = transposeSq W1 := by
  funext i
  obtain ⟨k', k, rfl⟩ : ∃ (k' k : Fin 128), i = ix2 k' k := ⟨i 0, i 1, eq_ix2 i⟩
  rw [transpose_ix2_apply]
  rfl

/-- The zeros the scatter accumulates into. -/
theorem zeros_apply (i : S100000x128.Idx) :
    broadcastInDim S100000x128 ![] bcast_S_S100000x128 (constant (F := Ideal) S_ .f32 0x00000000#32) i = (0 : EReal) := by
  rw [broadcastInDim_apply _ bcast_S_S100000x128 _ i ix0 (fun a => a.elim0)]
  show Ideal.ofBits .f32 0x00000000#32 = 0
  exact Ideal.ofBits_zero_f32

/-- The source indices as a column: entry (r, 0) is index r. -/
theorem column_apply (p : IVec S500000 32) (r : Fin 500000) :
    broadcastInDim S500000x1 ![0] bcast_S500000_S500000x1_0 p (ix2 r (0 : Fin 1)) = p (ix1 r) :=
  broadcastInDim_apply _ bcast_S500000_S500000x1_0 p (ix2 r (0 : Fin 1)) (ix1 r) (fun a => match a with
    | ⟨0, _⟩ => by show r.val = if (500000 : Nat) = 1 then 0 else r.val; rw [if_neg (by decide)])

/-- The edges the scatter sends to node n are those whose source index is n. -/
theorem hits_eq (p : IVec S500000 32) (n : Nat) :
    Cert.LibRowScatter.hits (broadcastInDim S500000x1 ![0] bcast_S500000_S500000x1_0 p) n = hits p n := by
  unfold Cert.LibRowScatter.hits hits
  refine Finset.filter_congr fun r _ => ?_
  rw [column_apply]

variable (m : (ℓ : Loc nD τ sig) → Buf (Elt Ideal) ℓ) (ρ : Dev nD → PrngReg)

/-- The seven arguments as launched, at their literal types. -/
abbrev aFeat (c : Dev nD) : Vec Ideal S100000x128 .f32 := m ((c : Thread nD τ).loc main_arg0)
abbrev aW0 (c : Dev nD) : Vec Ideal S128x256 .f32 := m ((c : Thread nD τ).loc main_arg1)
abbrev aB0 (c : Dev nD) : Vec Ideal S128 .f32 := m ((c : Thread nD τ).loc main_arg2)
abbrev aW1 (c : Dev nD) : Vec Ideal S128x128 .f32 := m ((c : Thread nD τ).loc main_arg3)
abbrev aB1 (c : Dev nD) : Vec Ideal S128 .f32 := m ((c : Thread nD τ).loc main_arg4)
abbrev aP1 (c : Dev nD) : IVec S500000 32 := m ((c : Thread nD τ).loc main_arg5)
abbrev aP2 (c : Dev nD) : IVec S500000 32 := m ((c : Thread nD τ).loc main_arg6)

/-- The messages with the filling gathers. -/
abbrev filledMessages (c : Dev nD) : Vec Ideal S500000x128 .f32 :=
  mlpRows (leftT (aW0 m c)) (rightT (aW0 m c)) (aB0 m c) (transposeSq (aW1 m c)) (aB1 m c)
    (takeFill (aFeat m c) (aP1 m c)) (takeFill (aFeat m c) (aP2 m c))

/-- The first launch's output is the messages with the filling gathers. -/
theorem messages_eq (c : Dev nD) : Region0.messages (V3 m ρ) c = filledMessages m c := by
  show mlpRows (W3 m ρ c (Proc.devRef .tc main_v1)) (W3 m ρ c (Proc.devRef .tc main_v3)) (W3 m ρ c (Proc.devRef .tc main_arg2))
      (W3 m ρ c (Proc.devRef .tc main_v4)) (W3 m ρ c (Proc.devRef .tc main_arg4))
      (W3 m ρ c (Proc.devRef .tc main_v5)) (W3 m ρ c (Proc.devRef .tc main_v6)) = _
  rw [W3_main_v1, W3_main_v3, W3_main_arg2, W3_main_v4, W3_main_arg4, W3_main_v5, W3_main_v6, leftT_eq, rightT_eq, transposeSq_eq]

/-- The result buffer at the last boundary, with the filling gathers. -/
theorem filled_value (c : Dev nD) :
    W6 m ρ c (Proc.devRef .tc main_v11) = resultOf (aFeat m c) (aP1 m c) (filledMessages m c) := by
  have e1 : Region1.firstArr (V5 m ρ) c = aFeat m c := W5_main_arg0 m ρ c
  have e2 : Region1.secondArr (V5 m ρ) c
      = Host.scatterAdd scatter_S100000x128_S500000x1_S500000x128_1_0_0_1
          (broadcastInDim S100000x128 ![] bcast_S_S100000x128 (constant (F := Ideal) S_ .f32 0x00000000#32))
          (broadcastInDim S500000x1 ![0] bcast_S500000_S500000x1_0 (aP1 m c)) (filledMessages m c) := by
    have h := W5_main_v10 m ρ c
    rw [Region0.final (V3 m ρ) c, messages_eq m ρ c] at h
    exact h
  rw [show W6 m ρ c (Proc.devRef .tc main_v11) = (dat1 (V5 m ρ) c).arrAt 2 cfg1.N from W6_arr m ρ c 2, Region1.final]
  funext i
  obtain ⟨n, j, rfl⟩ : ∃ (n : Fin 100000) (j : Fin 128), i = ix2 n j := ⟨i 0, i 1, eq_ix2 i⟩
  show relu (Region1.firstArr (V5 m ρ) c (ix2 n j) + Region1.secondArr (V5 m ρ) c (ix2 n j)) = _
  rw [e1, e2, show scatter_S100000x128_S500000x1_S500000x128_1_0_0_1
      = Cert.LibRowScatter.rowSDims2 100000 128 500000 scatter_S100000x128_S500000x1_S500000x128_1_0_0_1_wf from rfl,
    Cert.LibRowScatter.rowScatterAdd2_apply, zeros_apply, hits_eq]
  rfl

/-- THE KERNEL'S RESULT: when every target index lies in [−100000, 100000), the result buffer ends at the block's result
    function of the arguments. -/
theorem value (c : Dev nD)
    (hp2 : ∀ e : Fin 500000, -100000 ≤ (aP2 m c (ix1 e)).toInt ∧ (aP2 m c (ix1 e)).toInt < 100000) :
    W6 m ρ c (Proc.devRef .tc main_v11)
      = result (aFeat m c) (aW0 m c) (aB0 m c) (aW1 m c) (aB1 m c) (aP1 m c) (aP2 m c) := by
  rw [filled_value]
  refine resultOf_congr _ _ _ _ fun e j h0 h1 => ?_
  exact mlpRows_congr_row _ _ _ _ _ _ _ _ _ e j
    (fun k => takeFill_apply (aFeat m c) (aP1 m c) e k (by omega) h1)
    (fun k => takeFill_apply (aFeat m c) (aP2 m c) e k (hp2 e).1 (hp2 e).2)

end Cert.KernelIdeal.KernelValue

end
-- ==== Proof.RefValue.lean ====
/-
  The reference program's result, stage by stage, is the block's result function of its seven arguments.

  The two gathers read the rows the (wrapped, clamped) indices name.  The first layer is the product of the concatenated
  row [x1, x2 − x1] with the transpose of W0: a sum over 256 columns, whose left half meets x1 and the left half of W0
  and whose right half meets x2 − x1 and the right half of W0.  The second layer is the product with the transpose of W1.
  The scatter-add puts at node n the sum of the messages of the edges whose source index is n, starting from zero, and
  the last two operations add the features and take the positive part.
-/
import proofs.«419853_j68375879352644_1_alg».proof.Proof.Gen.ReferenceIdeal.Read
import proofs.«419853_j68375879352644_1_alg».proof.Proof.Spec
import proofs.«419853_j68375879352644_1_alg».proof.Proof.LibRowGather
import proofs.«419853_j68375879352644_1_alg».proof.Proof.LibRowScatter
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.EdgeConv
open scoped BigOperators

variable (x0 : (⟨S100000x128, .f32⟩ : BufTy).Contents (Elt Ideal)) (x1 : (⟨S128x256, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 x6 : (⟨S500000, .i32⟩ : BufTy).Contents (Elt Ideal))

/-! ## The wrapped indices and the gathered rows -/

/-- The start index of edge e's first gather is its source index, wrapped. -/
theorem start5 (e : Fin 500000) : val_main_v5 (F := Ideal) x5 (ix2 e (0 : Fin 1)) = wrapIx (x5 (ix1 e)) := by
  have hi : idx_main_v5 (ix2 e (0 : Fin 1)) = ix1 e := funext fun a => match a with | ⟨0, _⟩ => rfl
  rw [val_main_v5_apply, hi, val_main_v4_apply, val_main_v1_apply, val_main_v3_apply, val_main_v0_apply, val_main_c_apply,
    val_main_v2_apply, val_main_c_0_apply]
  rfl

/-- The start index of edge e's second gather is its target index, wrapped. -/
theorem start12 (e : Fin 500000) : val_main_v12 (F := Ideal) x6 (ix2 e (0 : Fin 1)) = wrapIx (x6 (ix1 e)) := by
  have hi : idx_main_v12 (ix2 e (0 : Fin 1)) = ix1 e := funext fun a => match a with | ⟨0, _⟩ => rfl
  rw [val_main_v12_apply, hi, val_main_v11_apply, val_main_v8_apply, val_main_v10_apply, val_main_v7_apply, val_main_c_1_apply,
    val_main_v9_apply, val_main_c_2_apply]
  rfl

/-- The first gather: the rows the source indices name. -/
theorem gathered6 : val_main_v6 (F := Ideal) x0 x5 = gatherRows x0 x5 := by
  funext i
  obtain ⟨e, k, rfl⟩ : ∃ (e : Fin 500000) (k : Fin 128), i = ix2 e k := ⟨i 0, i 1, eq_ix2 i⟩
  unfold val_main_v6
  rw [show gather_S100000x128_S500000x1_S500000x128_1_0_n_n_0_1_1128 = Cert.LibRowGather.rowDims2 100000 128 500000 gather_S100000x128_S500000x1_S500000x128_1_0_n_n_0_1_1128_wf from rfl,
    Cert.LibRowGather.rowGather2_apply (by decide)]
  refine congrArg x0 (congrArg (fun r : Fin 100000 => ix2 r k) (Fin.ext ?_))
  show min (val_main_v5 (F := Ideal) x5 (ix2 e (0 : Fin 1))).toInt.toNat 99999 = min (wrapIx (x5 (ix1 e))).toInt.toNat 99999
  exact congrArg (fun w : BitVec 32 => min w.toInt.toNat 99999) (start5 x5 e)

/-- The second gather: the rows the target indices name. -/
theorem gathered13 : val_main_v13 (F := Ideal) x0 x6 = gatherRows x0 x6 := by
  funext i
  obtain ⟨e, k, rfl⟩ : ∃ (e : Fin 500000) (k : Fin 128), i = ix2 e k := ⟨i 0, i 1, eq_ix2 i⟩
  unfold val_main_v13
  rw [show gather_S100000x128_S500000x1_S500000x128_1_0_n_n_0_1_1128 = Cert.LibRowGather.rowDims2 100000 128 500000 gather_S100000x128_S500000x1_S500000x128_1_0_n_n_0_1_1128_wf from rfl,
    Cert.LibRowGather.rowGather2_apply (by decide)]
  refine congrArg x0 (congrArg (fun r : Fin 100000 => ix2 r k) (Fin.ext ?_))
  show min (val_main_v12 (F := Ideal) x6 (ix2 e (0 : Fin 1))).toInt.toNat 99999 = min (wrapIx (x6 (ix1 e))).toInt.toNat 99999
  exact congrArg (fun w : BitVec 32 => min w.toInt.toNat 99999) (start12 x6 e)

/-! ## The concatenated row -/

/-- Column k of the left half of the concatenated row is the first row's column k. -/
theorem concat_lo (e : Fin 500000) (k : Fin 128) :
    val_main_v15 (F := Ideal) x0 x5 x6 (ix2 e (lo k)) = val_main_v6 (F := Ideal) x0 x5 (ix2 e k) := by
  unfold val_main_v15
  exact concatenate_pair_apply_left 1 _ _ concatenates_S500000x128_S500000x128_S500000x256_d1 (ix2 e (lo k)) rfl (ix2 e k)
    (fun b => match b with | ⟨0, _⟩ => rfl | ⟨1, _⟩ => rfl)

/-- Column k of the right half of the concatenated row is the difference row's column k. -/
theorem concat_hi (e : Fin 500000) (k : Fin 128) :
    val_main_v15 (F := Ideal) x0 x5 x6 (ix2 e (hi k)) = val_main_v14 (F := Ideal) x0 x5 x6 (ix2 e k) := by
  unfold val_main_v15
  exact concatenate_pair_apply_right 1 _ _ concatenates_S500000x128_S500000x128_S500000x256_d1 (ix2 e (hi k)) rfl rfl (ix2 e k)
    (fun b hb => match b, hb with
      | ⟨0, _⟩, _ => rfl
      | ⟨1, _⟩, hb => absurd rfl hb)
    (by show k.val + 128 = 128 + k.val; omega)

/-! ## The first layer -/

/-- The first layer at (e, k): the two half sums plus the bias, positive part. -/
theorem hidden_apply (e : Fin 500000) (k : Fin 128) :
    val_main_v21 (F := Ideal) x0 x1 x2 x5 x6 (ix2 e k)
      = relu ((∑ k' : Fin 128, gatherRows x0 x5 (ix2 e k') * leftT x1 (ix2 k' k))
          + (∑ k' : Fin 128, (gatherRows x0 x6 (ix2 e k') - gatherRows x0 x5 (ix2 e k')) * rightT x1 (ix2 k' k))
          + x2 (ix1 k)) := by
  have hl : ∀ k' : Fin 256, lidx_main_v17 (ix2 e k) k' = ix2 e k' := fun k' =>
    funext fun a => match a with | ⟨0, _⟩ => rfl | ⟨1, _⟩ => rfl
  have hr : ∀ k' : Fin 256, ridx_main_v17 (ix2 e k) k' = ix2 k' k := fun k' =>
    funext fun a => match a with | ⟨0, _⟩ => rfl | ⟨1, _⟩ => rfl
  have hb : idx_main_v18 (idx_main_v19 (ix2 e k)) = ix1 k := funext fun a => match a with | ⟨0, _⟩ => rfl
  have ht : ∀ k' : Fin 256, idx_main_v16 (ix2 k' k) = ix2 k k' := fun k' =>
    funext fun a => match a with | ⟨0, _⟩ => rfl | ⟨1, _⟩ => rfl
  rw [val_main_v21_apply, val_main_v20_apply, val_main_v17_apply, val_main_v19_apply, val_main_v18_apply, hb,
    val_main_call0_v0_apply, val_main_call0_cst_apply, sum_halves]
  simp only [hl, hr, ht, concat_lo, concat_hi, val_main_v16_apply, val_main_v14_apply, gathered6, gathered13,
    Ideal.maximumf_def, Ideal.addf_def, Ideal.subf_def, Ideal.ofBits_def, Ideal.ofBits_zero_f32, relu]
  rfl

/-! ## The messages -/

/-- The second layer's result: the messages of all edges. -/
theorem messages_eq :
    val_main_v27 (F := Ideal) x0 x1 x2 x3 x4 x5 x6
      = mlpRows (leftT x1) (rightT x1) x2 (transposeSq x3) x4 (gatherRows x0 x5) (gatherRows x0 x6) := by
  funext i
  obtain ⟨e, j, rfl⟩ : ∃ (e : Fin 500000) (j : Fin 128), i = ix2 e j := ⟨i 0, i 1, eq_ix2 i⟩
  have hl : ∀ k : Fin 128, lidx_main_v23 (ix2 e j) k = ix2 e k := fun k =>
    funext fun a => match a with | ⟨0, _⟩ => rfl | ⟨1, _⟩ => rfl
  have hr : ∀ k : Fin 128, ridx_main_v23 (ix2 e j) k = ix2 k j := fun k =>
    funext fun a => match a with | ⟨0, _⟩ => rfl | ⟨1, _⟩ => rfl
  have hb : idx_main_v24 (idx_main_v25 (ix2 e j)) = ix1 j := funext fun a => match a with | ⟨0, _⟩ => rfl
  have ht : ∀ k : Fin 128, idx_main_v22 (ix2 k j) = ix2 j k := fun k =>
    funext fun a => match a with | ⟨0, _⟩ => rfl | ⟨1, _⟩ => rfl
  rw [val_main_v27_apply, val_main_v26_apply, val_main_v23_apply, val_main_v25_apply, val_main_v24_apply, hb,
    val_main_call1_v0_apply, val_main_call1_cst_apply]
  simp only [hl, hr, ht, hidden_apply, val_main_v22_apply, Ideal.maximumf_def, Ideal.addf_def, Ideal.ofBits_def,
    Ideal.ofBits_zero_f32]
  rfl

/-! ## The result -/

/-- The edges the scatter sends to node n are those whose source index is n. -/
theorem hits_eq (n : Nat) : Cert.LibRowScatter.hits (val_main_v29 (F := Ideal) x5) n = hits x5 n := by
  unfold Cert.LibRowScatter.hits hits
  refine Finset.filter_congr fun r _ => ?_
  have hi : idx_main_v29 (ix2 r (0 : Fin 1)) = ix1 r := funext fun a => match a with | ⟨0, _⟩ => rfl
  rw [val_main_v29_apply, hi]

/-- THE REFERENCE'S RESULT is the block's result function of the arguments. -/
theorem result_eq : val_main_v32 (F := Ideal) x0 x1 x2 x3 x4 x5 x6 = result x0 x1 x2 x3 x4 x5 x6 := by
  funext i
  obtain ⟨n, j, rfl⟩ : ∃ (n : Fin 100000) (j : Fin 128), i = ix2 n j := ⟨i 0, i 1, eq_ix2 i⟩
  rw [val_main_v32_apply, val_main_v31_apply, val_main_call2_v0_apply, val_main_call2_cst_apply]
  unfold val_main_v30
  rw [show scatter_S100000x128_S500000x1_S500000x128_1_0_0_1 = Cert.LibRowScatter.rowSDims2 100000 128 500000 scatter_S100000x128_S500000x1_S500000x128_1_0_0_1_wf from rfl,
    Cert.LibRowScatter.rowScatterAdd2_apply, val_main_v28_apply, val_main_cst_apply, hits_eq, messages_eq]
  simp only [Ideal.maximumf_def, Ideal.addf_def, Ideal.ofBits_def, Ideal.ofBits_zero_f32]
  rfl

end Cert.ReferenceIdeal.RefValue

end
-- ==== Proof.PreRange.lean ====
/-
  What the precondition says of the target indices.  The precondition is one bit: the "and" of the five finiteness tests
  and of "every target index w satisfies −100000 ≤ w and w < 100000" (compared as signed 32-bit words, reduced by "and"
  over all 500000 edges).  When the bit is 1 each of its conjuncts is 1, so every edge's target index, read signed,
  lies in [−100000, 100000).
-/
import proofs.«419853_j68375879352644_1_alg».proof.Pre_finite_inputs
import Idealize.ShloMosaic.Lib.ReduceAll
import Idealize.ShloMosaic.Lib.ValueIdx
import Idealize.ShloMosaic.Lib.Affine
import Idealize.ShloMosaic.Lib.Pipeline.Value

noncomputable section

namespace Cert.Pre_finite_inputs.Range

open Idealize.ShloMosaic Idealize.ShloMosaic.ValueIdx Cert.Pre_finite_inputs

variable [Facts]
open Facts

instance : Subsingleton S_.Idx := ⟨fun a b => funext fun d => d.elim0⟩

/-- A scalar word broadcast over the edges reads, at any edge, the word. -/
theorem splat_apply (w : BitVec 32) (e : Fin 500000) :
    broadcastInDim S500000 ![] bcast_S_S500000 (constantI S_ 32 w) (ix1 e) = w :=
  broadcastInDim_apply _ bcast_S_S500000 _ (ix1 e) ix0 (fun a => a.elim0)

/-- Under the precondition every target index, read signed, lies in [−100000, 100000). -/
theorem target_in_range {F : FTy → Type} [FloatOps F] (a0 : FVec F S100000x128 .f32) (a1 : FVec F S128x256 .f32)
    (a2 : FVec F S128 .f32) (a3 : FVec F S128x128 .f32) (a4 : FVec F S128 .f32) (a5 a6 : IVec S500000 32)
    (h : fn (F := F) a0 a1 a2 a3 a4 a5 a6 = fun _ => 1#1) (e : Fin 500000) :
    -100000 ≤ (a6 (ix1 e)).toInt ∧ (a6 (ix1 e)).toInt < 100000 := by
  have h0 := congrFun h ix0
  dsimp only [fn, fn_part1] at h0
  have h1 := (IntOp.andi_eq_one.1 h0).2
  have h2 := Host.reduce_andi_all _ _ _ _ ix0 h1 (ix1 e)
  obtain ⟨hge, hlt⟩ := IntOp.andi_eq_one.1 h2
  have hge' := IntOp.cmpi_sge.1 hge
  have hlt' := IntOp.cmpi_slt.1 hlt
  rw [splat_apply] at hge' hlt'
  have lo : (4294867296#32 : BitVec 32).toInt = -100000 := by decide
  have hi : (100000#32 : BitVec 32).toInt = 100000 := by decide
  rw [lo] at hge'
  rw [hi] at hlt'
  exact ⟨hge', hlt'⟩

end Cert.Pre_finite_inputs.Range

end
-- ==== Proof.lean ====
/-
  An edge-convolution block: for each of 500000 edges (p1 e, p2 e) over 100000 nodes with 128 features, the message

      relu( relu( [x1, x2 − x1] · W0ᵀ + b0 ) · W1ᵀ + b1 ),   x1 = features[p1 e],  x2 = features[p2 e],

  is added into node p1 e, and the result is relu(features + the sums).

  The kernel program gathers the two families of rows on the host (a take that fills the rows of out-of-range indices),
  computes the messages in a first launch over blocks of 4000 edges — the product with W0ᵀ as two products with the
  transposed halves of W0, operands cut to a shorter float format —, scatter-adds them on the host, and adds the features
  and takes the positive part in a second launch over blocks of 5000 nodes.  The reference gathers by plain indexing,
  concatenates [x1, x2 − x1] and multiplies once.

  Over the extended reals a change of float format is the identity, a product into a zero accumulator is the sum of the
  products, and the sum over the 256 concatenated columns is the sum over its two halves; so, edge by edge, the two
  programs compute the same message from the same two rows.  The two gathers differ only at an index outside
  [−100000, 100000): the precondition keeps every target index inside, and an edge whose source index is outside
  [0, 100000) is dropped by the scatter in both programs, so it never reaches the result.  Both programs therefore end
  at one function of the seven arguments (Proof/Spec.lean, `result`).

  The three frames: the two kernel programs' by their launch-by-launch runs, the reference's by its run.  The kernel's
  idealization rewrote no operation, so `preserves` has nothing to state.
-/
import proofs.«419853_j68375879352644_1_alg».proof.Defs
import proofs.«419853_j68375879352644_1_alg».proof.Proof.Gen.Kernel
import proofs.«419853_j68375879352644_1_alg».proof.Proof.Gen.Kernel.Skeleton
import proofs.«419853_j68375879352644_1_alg».proof.Proof.Gen.Kernel.Launch
import proofs.«419853_j68375879352644_1_alg».proof.Proof.Gen.Kernel.Points
import proofs.«419853_j68375879352644_1_alg».proof.Proof.Gen.Kernel.Frame
import proofs.«419853_j68375879352644_1_alg».proof.Proof.Gen.KernelIdeal
import proofs.«419853_j68375879352644_1_alg».proof.Proof.Gen.KernelIdeal.Skeleton
import proofs.«419853_j68375879352644_1_alg».proof.Proof.Gen.KernelIdeal.Launch
import proofs.«419853_j68375879352644_1_alg».proof.Proof.Gen.KernelIdeal.Points
import proofs.«419853_j68375879352644_1_alg».proof.Proof.Gen.KernelIdeal.Frame
import proofs.«419853_j68375879352644_1_alg».proof.Proof.Gen.ReferenceIdeal
import proofs.«419853_j68375879352644_1_alg».proof.Proof.Gen.Pre_finite_inputs
import proofs.«419853_j68375879352644_1_alg».proof.Proof.Gen.ReferenceIdeal.Run
import proofs.«419853_j68375879352644_1_alg».proof.Proof.Gen.ReferenceIdeal.Read
import proofs.«419853_j68375879352644_1_alg».proof.Proof.KernelRun
import proofs.«419853_j68375879352644_1_alg».proof.Proof.KernelValue
import proofs.«419853_j68375879352644_1_alg».proof.Proof.RefValue
import proofs.«419853_j68375879352644_1_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the block's result function of the arguments: the kernel's by its run launch by launch
    (the target indices in range by the precondition), the reference's by its run stage by stage. -/
theorem algebraic : Cert.algebraic_KernelIdeal_ReferenceIdeal := by
  intro m ρ m' ρ' hpre hagree
  refine ⟨fun c => Cert.EdgeConv.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelValue.value m ρ c fun e =>
          Cert.Pre_finite_inputs.Range.target_in_range _ _ _ _ _ _ _ (hpre c) e), (h c).2⟩)
      (Cert.KernelIdeal.RunNamed.run m ρ)
  · refine (θ_run Cert.ReferenceIdeal.defs _ _).mono (fun r h c => ⟨?_, (h c).2⟩)
      (Cert.ReferenceIdeal.Value.run (F := Ideal) m' ρ')
    obtain ⟨a0, a1, a2, a3, a4, a5, a6⟩ := hagree c
    rw [(h c).1, Cert.ReferenceIdeal.Read.val_main_v32_eq, Cert.ReferenceIdeal.RefValue.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
